-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048 : Shape := ⟨2, ![4, 2048]⟩
abbrev S20000x1024 : Shape := ⟨2, ![20000, 1024]⟩
abbrev S20000x256 : Shape := ⟨2, ![20000, 256]⟩
abbrev S160000x64 : Shape := ⟨2, ![160000, 64]⟩
abbrev S67735x16 : Shape := ⟨2, ![67735, 16]⟩
abbrev S1024x1024 : Shape := ⟨2, ![1024, 1024]⟩
abbrev S256x1024 : Shape := ⟨2, ![256, 1024]⟩
abbrev S64x1024 : Shape := ⟨2, ![64, 1024]⟩
abbrev S16x1024 : Shape := ⟨2, ![16, 1024]⟩
abbrev S_ : Shape := ⟨0, ![]⟩

class Facts : Prop where
  bcast_S_S20000x1024 : S_.BroadcastsInDim S20000x1024 (![] : Fin 0 → Fin S20000x1024.rank)
  reducesTo_S20000x1024_S_d0_1 : S20000x1024.ReducesTo [0, 1] S_
  h_S_ : 0 < S_.numel
  bcast_S_S20000x256 : S_.BroadcastsInDim S20000x256 (![] : Fin 0 → Fin S20000x256.rank)
  reducesTo_S20000x256_S_d0_1 : S20000x256.ReducesTo [0, 1] S_
  bcast_S_S160000x64 : S_.BroadcastsInDim S160000x64 (![] : Fin 0 → Fin S160000x64.rank)
  reducesTo_S160000x64_S_d0_1 : S160000x64.ReducesTo [0, 1] S_
  bcast_S_S67735x16 : S_.BroadcastsInDim S67735x16 (![] : Fin 0 → Fin S67735x16.rank)
  reducesTo_S67735x16_S_d0_1 : S67735x16.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S64x1024 : S_.BroadcastsInDim S64x1024 (![] : Fin 0 → Fin S64x1024.rank)
  reducesTo_S64x1024_S_d0_1 : S64x1024.ReducesTo [0, 1] S_
  bcast_S_S16x1024 : S_.BroadcastsInDim S16x1024 (![] : Fin 0 → Fin S16x1024.rank)
  reducesTo_S16x1024_S_d0_1 : S16x1024.ReducesTo [0, 1] S_

variable [Facts]

def fn_part2 {F : FTy → Type} [FloatOps F] (main_arg8 : FVec F S16x1024 .f32) (main_v33 : IVec S_ 1) : IVec S_ 1 :=
  let main_v34 : FVec F S16x1024 .f32 := Host.absf main_arg8
  let main_cst_12 : FVec F S_ .f32 := constant S_ .f32 0x7F800000#32
  let main_v35 : FVec F S16x1024 .f32 := broadcastInDim S16x1024 ![] bcast_S_S16x1024 main_cst_12
  let main_v36 : IVec S16x1024 1 := cmpf .olt main_v34 main_v35
  let main_c_13 : IVec S_ 1 := constantI S_ 1 1#1
  let main_v37 : IVec S_ 1 := (fun x v => Host.reduce IntOp.andi x v reducesTo_S16x1024_S_d0_1 h_S_) main_v36 main_c_13
  let main_v38 : IVec S_ 1 := andi main_v33 main_v37
  main_v38

def fn_part1 {F : FTy → Type} [FloatOps F] (main_arg5 : FVec F S1024x1024 .f32) (main_arg6 : FVec F S256x1024 .f32) (main_arg7 : FVec F S64x1024 .f32) (main_arg8 : FVec F S16x1024 .f32) (main_v13 : IVec S_ 1) (main_v16 : IVec S67735x16 1) : IVec S_ 1 :=
  let main_c_5 : IVec S_ 1 := constantI S_ 1 1#1
  let main_v17 : IVec S_ 1 := (fun x v => Host.reduce IntOp.andi x v reducesTo_S67735x16_S_d0_1 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S256x1024 .f32 := Host.absf main_arg6
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S64x1024 .f32 := Host.absf main_arg7
  let main_cst_10 : FVec F S_ .f32 := constant S_ .f32 0x7F800000#32
  let main_v30 : FVec F S64x1024 .f32 := broadcastInDim S64x1024 ![] bcast_S_S64x1024 main_cst_10
  let main_v31 : IVec S64x1024 1 := cmpf .olt main_v29 main_v30
  let main_c_11 : IVec S_ 1 := constantI S_ 1 1#1
  let main_v32 : IVec S_ 1 := (fun x v => Host.reduce IntOp.andi x v reducesTo_S64x1024_S_d0_1 h_S_) main_v31 main_c_11
  let main_v33 : IVec S_ 1 := andi main_v28 main_v32
  fn_part2 (F := F) main_arg8 main_v33

def fn {F : FTy → Type} [FloatOps F] (main_arg0 : IVec S4x2048 32) (main_arg1 : FVec F S20000x1024 .f32) (main_arg2 : FVec F S20000x256 .f32) (main_arg3 : FVec F S160000x64 .f32) (main_arg4 : FVec F S67735x16 .f32) (main_arg5 : FVec F S1024x1024 .f32) (main_arg6 : FVec F S256x1024 .f32) (main_arg7 : FVec F S64x1024 .f32) (main_arg8 : FVec F S16x1024 .f32) : IVec S_ 1 :=
  let main_v0 : FVec F S20000x1024 .f32 := Host.absf main_arg1
  let main_cst : FVec F S_ .f32 := constant S_ .f32 0x7F800000#32
  let main_v1 : FVec F S20000x1024 .f32 := broadcastInDim S20000x1024 ![] bcast_S_S20000x1024 main_cst
  let main_v2 : IVec S20000x1024 1 := cmpf .olt main_v0 main_v1
  let main_c : IVec S_ 1 := constantI S_ 1 1#1
  let main_v3 : IVec S_ 1 := (fun x v => Host.reduce IntOp.andi x v reducesTo_S20000x1024_S_d0_1 h_S_) main_v2 main_c
  let main_v4 : FVec F S20000x256 .f32 := Host.absf main_arg2
  let main_cst_0 : FVec F S_ .f32 := constant S_ .f32 0x7F800000#32
  let main_v5 : FVec F S20000x256 .f32 := broadcastInDim S20000x256 ![] bcast_S_S20000x256 main_cst_0
  let main_v6 : IVec S20000x256 1 := cmpf .olt main_v4 main_v5
  let main_c_1 : IVec S_ 1 := constantI S_ 1 1#1
  let main_v7 : IVec S_ 1 := (fun x v => Host.reduce IntOp.andi x v reducesTo_S20000x256_S_d0_1 h_S_) main_v6 main_c_1
  let main_v8 : IVec S_ 1 := andi main_v3 main_v7
  let main_v9 : FVec F S160000x64 .f32 := Host.absf main_arg3
  let main_cst_2 : FVec F S_ .f32 := constant S_ .f32 0x7F800000#32
  let main_v10 : FVec F S160000x64 .f32 := broadcastInDim S160000x64 ![] bcast_S_S160000x64 main_cst_2
  let main_v11 : IVec S160000x64 1 := cmpf .olt main_v9 main_v10
  let main_c_3 : IVec S_ 1 := constantI S_ 1 1#1
  let main_v12 : IVec S_ 1 := (fun x v => Host.reduce IntOp.andi x v reducesTo_S160000x64_S_d0_1 h_S_) main_v11 main_c_3
  let main_v13 : IVec S_ 1 := andi main_v8 main_v12
  let main_v14 : FVec F S67735x16 .f32 := Host.absf main_arg4
  let main_cst_4 : FVec F S_ .f32 := constant S_ .f32 0x7F800000#32
  let main_v15 : FVec F S67735x16 .f32 := broadcastInDim S67735x16 ![] bcast_S_S67735x16 main_cst_4
  let main_v16 : IVec S67735x16 1 := cmpf .olt main_v14 main_v15
  fn_part1 (F := F) main_arg5 main_arg6 main_arg7 main_arg8 main_v13 main_v16
-- ==== Kernel.lean ====
abbrev S4x2048 : Shape := ⟨2, ![4, 2048]⟩
abbrev S20000x1024 : Shape := ⟨2, ![20000, 1024]⟩
abbrev S20000x256 : Shape := ⟨2, ![20000, 256]⟩
abbrev S160000x64 : Shape := ⟨2, ![160000, 64]⟩
abbrev S67735x16 : Shape := ⟨2, ![67735, 16]⟩
abbrev S1024x1024 : Shape := ⟨2, ![1024, 1024]⟩
abbrev S256x1024 : Shape := ⟨2, ![256, 1024]⟩
abbrev S64x1024 : Shape := ⟨2, ![64, 1024]⟩
abbrev S16x1024 : Shape := ⟨2, ![16, 1024]⟩
abbrev S8192 : Shape := ⟨1, ![8192]⟩
abbrev S_ : Shape := ⟨0, ![]⟩
abbrev S8192x1 : Shape := ⟨2, ![8192, 1]⟩
abbrev S8192x1024 : Shape := ⟨2, ![8192, 1024]⟩
abbrev S8192x256 : Shape := ⟨2, ![8192, 256]⟩
abbrev S8192x64 : Shape := ⟨2, ![8192, 64]⟩
abbrev S8192x16 : Shape := ⟨2, ![8192, 16]⟩
abbrev S8192x1360 : Shape := ⟨2, ![8192, 1360]⟩
abbrev S1360x1024 : Shape := ⟨2, ![1360, 1024]⟩
abbrev S2048x1360 : Shape := ⟨2, ![2048, 1360]⟩
abbrev S2048x1024 : Shape := ⟨2, ![2048, 1024]⟩
abbrev S4x2048x1024 : Shape := ⟨3, ![4, 2048, 1024]⟩

abbrev nBuf : Space → Nat
  | .hbm => 150
  | .vmem => 5
  | .smem => 0
  | _ => 0

abbrev hbmTy0_0 (i : Nat) : BufTy := match i % 128 with
  | 0 => ⟨S4x2048, .i32⟩
  | 1 => ⟨S20000x1024, .f32⟩
  | 2 => ⟨S20000x256, .f32⟩
  | 3 => ⟨S160000x64, .f32⟩
  | 4 => ⟨S67735x16, .f32⟩
  | 5 => ⟨S1024x1024, .f32⟩
  | 6 => ⟨S256x1024, .f32⟩
  | 7 => ⟨S64x1024, .f32⟩
  | 8 => ⟨S16x1024, .f32⟩
  | 9 => ⟨S8192, .i32⟩
  | 10 => ⟨S_, .i32⟩
  | 11 => ⟨S8192, .i32⟩
  | 12 => ⟨S8192, .i1⟩
  | 13 => ⟨S_, .i32⟩
  | 14 => ⟨S8192, .i32⟩
  | 15 => ⟨S8192, .i1⟩
  | 16 => ⟨S8192, .i1⟩
  | 17 => ⟨S_, .i32⟩
  | 18 => ⟨S8192, .i32⟩
  | 19 => ⟨S8192, .i32⟩
  | 20 => ⟨S_, .i32⟩
  | 21 => ⟨S_, .i32⟩
  | 22 => ⟨S_, .i32⟩
  | 23 => ⟨S8192, .i32⟩
  | 24 => ⟨S8192, .i32⟩
  | 25 => ⟨S_, .i32⟩
  | 26 => ⟨S8192, .i32⟩
  | 27 => ⟨S8192, .i32⟩
  | 28 => ⟨S_, .i32⟩
  | 29 => ⟨S8192, .i32⟩
  | 30 => ⟨S8192, .i1⟩
  | 31 => ⟨S_, .i32⟩
  | 32 => ⟨S8192, .i32⟩
  | 33 => ⟨S8192, .i32⟩
  | 34 => ⟨S8192, .i32⟩
  | 35 => ⟨S8192x1, .i32⟩
  | 36 => ⟨S8192x1024, .f32⟩
  | 37 => ⟨S8192x1, .i1⟩
  | 38 => ⟨S_, .f32⟩
  | 39 => ⟨S8192x1024, .i1⟩
  | 40 => ⟨S8192x1024, .f32⟩
  | 41 => ⟨S8192x1024, .f32⟩
  | 42 => ⟨S8192x1024, .bf16⟩
  | 43 => ⟨S_, .i32⟩
  | 44 => ⟨S8192, .i32⟩
  | 45 => ⟨S8192, .i1⟩
  | 46 => ⟨S_, .i32⟩
  | 47 => ⟨S8192, .i32⟩
  | 48 => ⟨S8192, .i1⟩
  | 49 => ⟨S8192, .i1⟩
  | 50 => ⟨S_, .i32⟩
  | 51 => ⟨S8192, .i32⟩
  | 52 => ⟨S8192, .i32⟩
  | 53 => ⟨S_, .i32⟩
  | 54 => ⟨S_, .i32⟩
  | 55 => ⟨S_, .i32⟩
  | 56 => ⟨S8192, .i32⟩
  | 57 => ⟨S8192, .i32⟩
  | 58 => ⟨S_, .i32⟩
  | 59 => ⟨S8192, .i32⟩
  | 60 => ⟨S8192, .i32⟩
  | 61 => ⟨S_, .i32⟩
  | 62 => ⟨S8192, .i32⟩
  | 63 => ⟨S8192, .i1⟩
  | 64 => ⟨S_, .i32⟩
  | 65 => ⟨S8192, .i32⟩
  | 66 => ⟨S8192, .i32⟩
  | 67 => ⟨S8192, .i32⟩
  | 68 => ⟨S8192x1, .i32⟩
  | 69 => ⟨S8192x256, .f32⟩
  | 70 => ⟨S8192x1, .i1⟩
  | 71 => ⟨S_, .f32⟩
  | 72 => ⟨S8192x256, .i1⟩
  | 73 => ⟨S8192x256, .f32⟩
  | 74 => ⟨S8192x256, .f32⟩
  | 75 => ⟨S8192x256, .bf16⟩
  | 76 => ⟨S_, .i32⟩
  | 77 => ⟨S8192, .i32⟩
  | 78 => ⟨S8192, .i1⟩
  | 79 => ⟨S_, .i32⟩
  | 80 => ⟨S8192, .i32⟩
  | 81 => ⟨S8192, .i1⟩
  | 82 => ⟨S8192, .i1⟩
  | 83 => ⟨S_, .i32⟩
  | 84 => ⟨S8192, .i32⟩
  | 85 => ⟨S8192, .i32⟩
  | 86 => ⟨S_, .i32⟩
  | 87 => ⟨S_, .i32⟩
  | 88 => ⟨S_, .i32⟩
  | 89 => ⟨S8192, .i32⟩
  | 90 => ⟨S8192, .i32⟩
  | 91 => ⟨S_, .i32⟩
  | 92 => ⟨S8192, .i32⟩
  | 93 => ⟨S8192, .i32⟩
  | 94 => ⟨S_, .i32⟩
  | 95 => ⟨S8192, .i32⟩
  | 96 => ⟨S8192, .i1⟩
  | 97 => ⟨S_, .i32⟩
  | 98 => ⟨S8192, .i32⟩
  | 99 => ⟨S8192, .i32⟩
  | 100 => ⟨S8192, .i32⟩
  | 101 => ⟨S8192x1, .i32⟩
  | 102 => ⟨S8192x64, .f32⟩
  | 103 => ⟨S8192x1, .i1⟩
  | 104 => ⟨S_, .f32⟩
  | 105 => ⟨S8192x64, .i1⟩
  | 106 => ⟨S8192x64, .f32⟩
  | 107 => ⟨S8192x64, .f32⟩
  | 108 => ⟨S8192x64, .bf16⟩
  | 109 => ⟨S_, .i32⟩
  | 110 => ⟨S8192, .i32⟩
  | 111 => ⟨S8192, .i1⟩
  | 112 => ⟨S_, .i32⟩
  | 113 => ⟨S8192, .i32⟩
  | 114 => ⟨S8192, .i1⟩
  | 115 => ⟨S8192, .i1⟩
  | 116 => ⟨S_, .i32⟩
  | 117 => ⟨S8192, .i32⟩
  | 118 => ⟨S8192, .i32⟩
  | 119 => ⟨S_, .i32⟩
  | 120 => ⟨S_, .i32⟩
  | 121 => ⟨S_, .i32⟩
  | 122 => ⟨S8192, .i32⟩
  | 123 => ⟨S8192, .i32⟩
  | 124 => ⟨S_, .i32⟩
  | 125 => ⟨S8192, .i32⟩
  | 126 => ⟨S8192, .i32⟩
  | 127 => ⟨S_, .i32⟩
  | _ => ⟨S4x2048, .i32⟩

abbrev hbmTy0_1 (i : Nat) : BufTy := match i % 128 with
  | 0 => ⟨S8192, .i32⟩
  | 1 => ⟨S8192, .i1⟩
  | 2 => ⟨S_, .i32⟩
  | 3 => ⟨S8192, .i32⟩
  | 4 => ⟨S8192, .i32⟩
  | 5 => ⟨S8192, .i32⟩
  | 6 => ⟨S8192x1, .i32⟩
  | 7 => ⟨S8192x16, .f32⟩
  | 8 => ⟨S8192x1, .i1⟩
  | 9 => ⟨S_, .f32⟩
  | 10 => ⟨S8192x16, .i1⟩
  | 11 => ⟨S8192x16, .f32⟩
  | 12 => ⟨S8192x16, .f32⟩
  | 13 => ⟨S8192x16, .bf16⟩
  | 14 => ⟨S8192x1360, .bf16⟩
  | 15 => ⟨S1024x1024, .bf16⟩
  | 16 => ⟨S256x1024, .bf16⟩
  | 17 => ⟨S64x1024, .bf16⟩
  | 18 => ⟨S16x1024, .bf16⟩
  | 19 => ⟨S1360x1024, .bf16⟩
  | 20 => ⟨S8192x1024, .f32⟩
  | 21 => ⟨S4x2048x1024, .f32⟩
  | _ => ⟨S4x2048, .i32⟩

abbrev hbmTy (i : Nat) : BufTy := match i / 128 with
  | 0 => hbmTy0_0 i
  | 1 => hbmTy0_1 i
  | _ => ⟨S4x2048, .i32⟩

abbrev bufTy : (tb : Table) → Fin (tcTables nBuf tb) → BufTy
  | .hbm, ⟨i, _⟩ => hbmTy i
  | .local _ .vmem, ⟨0, _⟩ => ⟨S2048x1360, .bf16⟩
  | .local _ .vmem, ⟨1, _⟩ => ⟨S2048x1360, .bf16⟩
  | .local _ .vmem, ⟨2, _⟩ => ⟨S1360x1024, .bf16⟩
  | .local _ .vmem, ⟨3, _⟩ => ⟨S2048x1024, .f32⟩
  | .local _ .vmem, ⟨4, _⟩ => ⟨S2048x1024, .f32⟩
  | _, _ => ⟨S4x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_c_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v8 : Ref sig .tc := ⟨.hbm, 27, rfl⟩
abbrev main_c_4 : Ref sig .tc := ⟨.hbm, 28, rfl⟩
abbrev main_v9 : Ref sig .tc := ⟨.hbm, 29, rfl⟩
abbrev main_v10 : Ref sig .tc := ⟨.hbm, 30, rfl⟩
abbrev main_c_5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst : Ref sig .tc := ⟨.hbm, 38, rfl⟩
abbrev main_call1_v0 : Ref sig .tc := ⟨.hbm, 39, rfl⟩
abbrev main_call1_v1 : Ref sig .tc := ⟨.hbm, 40, rfl⟩
abbrev main_v17 : Ref sig .tc := ⟨.hbm, 41, rfl⟩
abbrev main_v18 : Ref sig .tc := ⟨.hbm, 42, rfl⟩
abbrev main_c_6 : Ref sig .tc := ⟨.hbm, 43, rfl⟩
abbrev main_v19 : Ref sig .tc := ⟨.hbm, 44, rfl⟩
abbrev main_v20 : Ref sig .tc := ⟨.hbm, 45, rfl⟩
abbrev main_c_7 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_8 : Ref sig .tc := ⟨.hbm, 50, rfl⟩
abbrev main_v24 : Ref sig .tc := ⟨.hbm, 51, rfl⟩
abbrev main_v25 : Ref sig .tc := ⟨.hbm, 52, rfl⟩
abbrev main_c_9 : Ref sig .tc := ⟨.hbm, 53, rfl⟩
abbrev main_c_10 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v26 : Ref sig .tc := ⟨.hbm, 60, rfl⟩
abbrev main_c_11 : Ref sig .tc := ⟨.hbm, 61, rfl⟩
abbrev main_v27 : Ref sig .tc := ⟨.hbm, 62, rfl⟩
abbrev main_v28 : Ref sig .tc := ⟨.hbm, 63, rfl⟩
abbrev main_c_12 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_13 : Ref sig .tc := ⟨.hbm, 71, rfl⟩
abbrev main_call3_v0 : Ref sig .tc := ⟨.hbm, 72, rfl⟩
abbrev main_call3_v1 : Ref sig .tc := ⟨.hbm, 73, rfl⟩
abbrev main_v35 : Ref sig .tc := ⟨.hbm, 74, rfl⟩
abbrev main_v36 : Ref sig .tc := ⟨.hbm, 75, rfl⟩
abbrev main_c_14 : Ref sig .tc := ⟨.hbm, 76, rfl⟩
abbrev main_v37 : Ref sig .tc := ⟨.hbm, 77, rfl⟩
abbrev main_v38 : Ref sig .tc := ⟨.hbm, 78, rfl⟩
abbrev main_c_15 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_c_16 : Ref sig .tc := ⟨.hbm, 83, rfl⟩
abbrev main_v42 : Ref sig .tc := ⟨.hbm, 84, rfl⟩
abbrev main_v43 : Ref sig .tc := ⟨.hbm, 85, rfl⟩
abbrev main_c_17 : Ref sig .tc := ⟨.hbm, 86, rfl⟩
abbrev main_c_18 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_v44 : Ref sig .tc := ⟨.hbm, 93, rfl⟩
abbrev main_c_19 : Ref sig .tc := ⟨.hbm, 94, rfl⟩
abbrev main_v45 : Ref sig .tc := ⟨.hbm, 95, rfl⟩
abbrev main_v46 : Ref sig .tc := ⟨.hbm, 96, rfl⟩
abbrev main_c_20 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_cst_21 : Ref sig .tc := ⟨.hbm, 104, rfl⟩
abbrev main_call5_v0 : Ref sig .tc := ⟨.hbm, 105, rfl⟩
abbrev main_call5_v1 : Ref sig .tc := ⟨.hbm, 106, rfl⟩
abbrev main_v53 : Ref sig .tc := ⟨.hbm, 107, rfl⟩
abbrev main_v54 : Ref sig .tc := ⟨.hbm, 108, rfl⟩
abbrev main_c_22 : Ref sig .tc := ⟨.hbm, 109, rfl⟩
abbrev main_v55 : Ref sig .tc := ⟨.hbm, 110, rfl⟩
abbrev main_v56 : Ref sig .tc := ⟨.hbm, 111, rfl⟩
abbrev main_c_23 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_c_24 : Ref sig .tc := ⟨.hbm, 116, rfl⟩
abbrev main_v60 : Ref sig .tc := ⟨.hbm, 117, rfl⟩
abbrev main_v61 : Ref sig .tc := ⟨.hbm, 118, rfl⟩
abbrev main_c_25 : Ref sig .tc := ⟨.hbm, 119, rfl⟩
abbrev main_c_26 : Ref sig .tc := ⟨.hbm, 120, rfl⟩
abbrev main_call6_v0 : Ref sig .tc := ⟨.hbm, 121, rfl⟩
abbrev main_call6_v1 : Ref sig .tc := ⟨.hbm, 122, rfl⟩
abbrev main_call6_v2 : Ref sig .tc := ⟨.hbm, 123, rfl⟩
abbrev main_call6_v3 : Ref sig .tc := ⟨.hbm, 124, rfl⟩
abbrev main_call6_v4 : Ref sig .tc := ⟨.hbm, 125, rfl⟩
abbrev main_v62 : Ref sig .tc := ⟨.hbm, 126, rfl⟩
abbrev main_c_27 : Ref sig .tc := ⟨.hbm, 127, rfl⟩
abbrev main_v63 : Ref sig .tc := ⟨.hbm, 128, rfl⟩
abbrev main_v64 : Ref sig .tc := ⟨.hbm, 129, rfl⟩
abbrev main_c_28 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_cst_29 : Ref sig .tc := ⟨.hbm, 137, rfl⟩
abbrev main_call7_v0 : Ref sig .tc := ⟨.hbm, 138, rfl⟩
abbrev main_call7_v1 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1360 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1360x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x2048_S8192 : S4x2048.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  bcast_S_S8192x1024 : S_.BroadcastsInDim S8192x1024 (![] : Fin 0 → Fin S8192x1024.rank)
  bitsLt_bf16_f32 : FTy.bits .bf16 < FTy.bits .f32
  bcast_S8192x1_S8192x256_0_1 : S8192x1.BroadcastsInDim S8192x256 (![0, 1] : Fin 2 → Fin S8192x256.rank)
  bcast_S_S8192x256 : S_.BroadcastsInDim S8192x256 (![] : Fin 0 → Fin S8192x256.rank)
  bcast_S8192x1_S8192x64_0_1 : S8192x1.BroadcastsInDim S8192x64 (![0, 1] : Fin 2 → Fin S8192x64.rank)
  bcast_S_S8192x64 : S_.BroadcastsInDim S8192x64 (![] : Fin 0 → Fin S8192x64.rank)
  bcast_S8192x1_S8192x16_0_1 : S8192x1.BroadcastsInDim S8192x16 (![0, 1] : Fin 2 → Fin S8192x16.rank)
  bcast_S_S8192x16 : S_.BroadcastsInDim S8192x16 (![] : Fin 0 → Fin S8192x16.rank)
  concatenates_S8192x1024_S8192x256_S8192x64_S8192x16_S8192x1360_d1 : Shape.Concatenates [S8192x1024, S8192x256, S8192x64, S8192x16] S8192x1360 1
  concatenates_S1024x1024_S256x1024_S64x1024_S16x1024_S1360x1024_d0 : Shape.Concatenates [S1024x1024, S256x1024, S64x1024, S16x1024] S1360x1024 0
  inb_S2048x1360_S2048x1360_0_0 : ∀ a, (![0, 0] : Fin 2 → Nat) a + S2048x1360.size a ≤ S2048x1360.size a
  h_S2048x1360 : 0 < S2048x1360.numel
  shapeCasts_S2048x1360_S2048x1360 : S2048x1360.ShapeCasts S2048x1360
  inb_S1360x1024_S1360x1024_0_0 : ∀ a, (![0, 0] : Fin 2 → Nat) a + S1360x1024.size a ≤ S1360x1024.size a
  h_S1360x1024 : 0 < S1360x1024.numel
  shapeCasts_S1360x1024_S1360x1024 : S1360x1024.ShapeCasts S1360x1024
  inb_S2048x1024_S2048x1024_0_0 : ∀ a, (![0, 0] : Fin 2 → Nat) a + S2048x1024.size a ≤ S2048x1024.size a
  h_S2048x1024 : 0 < S2048x1024.numel
  shapeCasts_S8192x1024_S4x2048x1024 : S8192x1024.ShapeCasts S4x2048x1024
  gather_S20000x1024_S8192x1_S8192x1024_1_0_n_n_0_1_11024_wf : GatherDims.WF S20000x1024 S8192x1 S8192x1024 [1] [0] [] [0] [] 1 ![1, 1024]
  gather_S20000x256_S8192x1_S8192x256_1_0_n_n_0_1_1256_wf : GatherDims.WF S20000x256 S8192x1 S8192x256 [1] [0] [] [0] [] 1 ![1, 256]
  gather_S160000x64_S8192x1_S8192x64_1_0_n_n_0_1_164_wf : GatherDims.WF S160000x64 S8192x1 S8192x64 [1] [0] [] [0] [] 1 ![1, 64]
  gather_S67735x16_S8192x1_S8192x16_1_0_n_n_0_1_116_wf : GatherDims.WF S67735x16 S8192x1 S8192x16 [1] [0] [] [0] [] 1 ![1, 16]
  dot_S2048x1360_S1360x1024_S2048x1024_1_0_0_1_n_n_wf : DotDims.WF S2048x1360 S1360x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1360.size a ≤ S8192x1360.size a
  hwx0_0 : ∀ i : grid0.Coords, EltTy.bits .bf16 = 32 ∨ (Rect.block (s := S8192x1360) S2048x1360.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1360x1024.size a ≤ S1360x1024.size a
  hwx0_1 : ∀ i : grid0.Coords, EltTy.bits .bf16 = 32 ∨ (Rect.block (s := S1360x1024) S1360x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x1024.size a
  hwx0_2 : ∀ i : grid0.Coords, EltTy.bits .f32 = 32 ∨ (Rect.block (s := S8192x1024) S2048x1024.size (cc0_transform_2 i) (hinb0_2 i)).WholeWords (EltTy.packing .f32)

variable [Facts₀]

def gather_S20000x1024_S8192x1_S8192x1024_1_0_n_n_0_1_11024 : GatherDims S20000x1024 S8192x1 S8192x1024 where
  offsetDims := [1]
  collapsedSliceDims := [0]
  operandBatchingDims := []
  startIndicesBatchingDims := []
  startIndexMap := [0]
  indexVectorDim := 1
  sliceSizes := ![1, 1024]
  wf := gather_S20000x1024_S8192x1_S8192x1024_1_0_n_n_0_1_11024_wf
def gather_S20000x256_S8192x1_S8192x256_1_0_n_n_0_1_1256 : GatherDims S20000x256 S8192x1 S8192x256 where
  offsetDims := [1]
  collapsedSliceDims := [0]
  operandBatchingDims := []
  startIndicesBatchingDims := []
  startIndexMap := [0]
  indexVectorDim := 1
  sliceSizes := ![1, 256]
  wf := gather_S20000x256_S8192x1_S8192x256_1_0_n_n_0_1_1256_wf
def gather_S160000x64_S8192x1_S8192x64_1_0_n_n_0_1_164 : GatherDims S160000x64 S8192x1 S8192x64 where
  offsetDims := [1]
  collapsedSliceDims := [0]
  operandBatchingDims := []
  startIndicesBatchingDims := []
  startIndexMap := [0]
  indexVectorDim := 1
  sliceSizes := ![1, 64]
  wf := gather_S160000x64_S8192x1_S8192x64_1_0_n_n_0_1_164_wf
def gather_S67735x16_S8192x1_S8192x16_1_0_n_n_0_1_116 : GatherDims S67735x16 S8192x1 S8192x16 where
  offsetDims := [1]
  collapsedSliceDims := [0]
  operandBatchingDims := []
  startIndicesBatchingDims := []
  startIndexMap := [0]
  indexVectorDim := 1
  sliceSizes := ![1, 16]
  wf := gather_S67735x16_S8192x1_S8192x16_1_0_n_n_0_1_116_wf
def dot_S2048x1360_S1360x1024_S2048x1024_1_0_0_1_n_n : DotDims S2048x1360 S1360x1024 S2048x1024 where
  lhsContracting := [1]
  rhsContracting := [0]
  lhsNonContracting := [0]
  rhsNonContracting := [1]
  lhsBatch := []
  rhsBatch := []
  wf := dot_S2048x1360_S1360x1024_S2048x1024_1_0_0_1_n_n_wf

abbrev win0_0 : Pipeline.Window sig grid0 :=
  Pipeline.Window.ofSpec (Memref.whole main_v73) S2048x1360.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v78) S1360x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v79) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048 : Shape := ⟨2, ![4, 2048]⟩
abbrev S20000x1024 : Shape := ⟨2, ![20000, 1024]⟩
abbrev S20000x256 : Shape := ⟨2, ![20000, 256]⟩
abbrev S160000x64 : Shape := ⟨2, ![160000, 64]⟩
abbrev S67735x16 : Shape := ⟨2, ![67735, 16]⟩
abbrev S1024x1024 : Shape := ⟨2, ![1024, 1024]⟩
abbrev S256x1024 : Shape := ⟨2, ![256, 1024]⟩
abbrev S64x1024 : Shape := ⟨2, ![64, 1024]⟩
abbrev S16x1024 : Shape := ⟨2, ![16, 1024]⟩
abbrev S8192 : Shape := ⟨1, ![8192]⟩
abbrev S_ : Shape := ⟨0, ![]⟩
abbrev S8192x1024 : Shape := ⟨2, ![8192, 1024]⟩
abbrev S8192x1 : Shape := ⟨2, ![8192, 1]⟩
abbrev S8192x256 : Shape := ⟨2, ![8192, 256]⟩
abbrev S8192x64 : Shape := ⟨2, ![8192, 64]⟩
abbrev S8192x16 : Shape := ⟨2, ![8192, 16]⟩
abbrev S4x2048x1024 : Shape := ⟨3, ![4, 2048, 1024]⟩

abbrev nBuf : Space → Nat
  | .hbm => 152
  | .vmem => 0
  | .smem => 0
  | _ => 0

abbrev hbmTy0_0 (i : Nat) : BufTy := match i % 128 with
  | 0 => ⟨S4x2048, .i32⟩
  | 1 => ⟨S20000x1024, .f32⟩
  | 2 => ⟨S20000x256, .f32⟩
  | 3 => ⟨S160000x64, .f32⟩
  | 4 => ⟨S67735x16, .f32⟩
  | 5 => ⟨S1024x1024, .f32⟩
  | 6 => ⟨S256x1024, .f32⟩
  | 7 => ⟨S64x1024, .f32⟩
  | 8 => ⟨S16x1024, .f32⟩
  | 9 => ⟨S8192, .i32⟩
  | 10 => ⟨S_, .f32⟩
  | 11 => ⟨S8192x1024, .f32⟩
  | 12 => ⟨S_, .i32⟩
  | 13 => ⟨S8192, .i32⟩
  | 14 => ⟨S8192, .i1⟩
  | 15 => ⟨S_, .i32⟩
  | 16 => ⟨S8192, .i32⟩
  | 17 => ⟨S8192, .i1⟩
  | 18 => ⟨S8192, .i1⟩
  | 19 => ⟨S_, .i32⟩
  | 20 => ⟨S8192, .i32⟩
  | 21 => ⟨S8192, .i32⟩
  | 22 => ⟨S_, .i32⟩
  | 23 => ⟨S_, .i32⟩
  | 24 => ⟨S_, .i32⟩
  | 25 => ⟨S8192, .i32⟩
  | 26 => ⟨S8192, .i32⟩
  | 27 => ⟨S_, .i32⟩
  | 28 => ⟨S8192, .i32⟩
  | 29 => ⟨S8192, .i32⟩
  | 30 => ⟨S_, .i32⟩
  | 31 => ⟨S8192, .i32⟩
  | 32 => ⟨S8192, .i1⟩
  | 33 => ⟨S_, .i32⟩
  | 34 => ⟨S8192, .i32⟩
  | 35 => ⟨S8192, .i32⟩
  | 36 => ⟨S8192, .i32⟩
  | 37 => ⟨S8192x1, .i32⟩
  | 38 => ⟨S8192x1024, .f32⟩
  | 39 => ⟨S8192x1024, .f32⟩
  | 40 => ⟨S8192x1, .i1⟩
  | 41 => ⟨S_, .f32⟩
  | 42 => ⟨S8192x1024, .i1⟩
  | 43 => ⟨S8192x1024, .f32⟩
  | 44 => ⟨S8192x1024, .f32⟩
  | 45 => ⟨S8192x1024, .f32⟩
  | 46 => ⟨S_, .i32⟩
  | 47 => ⟨S8192, .i32⟩
  | 48 => ⟨S8192, .i1⟩
  | 49 => ⟨S_, .i32⟩
  | 50 => ⟨S8192, .i32⟩
  | 51 => ⟨S8192, .i1⟩
  | 52 => ⟨S8192, .i1⟩
  | 53 => ⟨S_, .i32⟩
  | 54 => ⟨S8192, .i32⟩
  | 55 => ⟨S8192, .i32⟩
  | 56 => ⟨S_, .i32⟩
  | 57 => ⟨S_, .i32⟩
  | 58 => ⟨S_, .i32⟩
  | 59 => ⟨S8192, .i32⟩
  | 60 => ⟨S8192, .i32⟩
  | 61 => ⟨S_, .i32⟩
  | 62 => ⟨S8192, .i32⟩
  | 63 => ⟨S8192, .i32⟩
  | 64 => ⟨S_, .i32⟩
  | 65 => ⟨S8192, .i32⟩
  | 66 => ⟨S8192, .i1⟩
  | 67 => ⟨S_, .i32⟩
  | 68 => ⟨S8192, .i32⟩
  | 69 => ⟨S8192, .i32⟩
  | 70 => ⟨S8192, .i32⟩
  | 71 => ⟨S8192x1, .i32⟩
  | 72 => ⟨S8192x256, .f32⟩
  | 73 => ⟨S8192x1024, .f32⟩
  | 74 => ⟨S8192x1, .i1⟩
  | 75 => ⟨S_, .f32⟩
  | 76 => ⟨S8192x1024, .i1⟩
  | 77 => ⟨S8192x1024, .f32⟩
  | 78 => ⟨S8192x1024, .f32⟩
  | 79 => ⟨S8192x1024, .f32⟩
  | 80 => ⟨S_, .i32⟩
  | 81 => ⟨S8192, .i32⟩
  | 82 => ⟨S8192, .i1⟩
  | 83 => ⟨S_, .i32⟩
  | 84 => ⟨S8192, .i32⟩
  | 85 => ⟨S8192, .i1⟩
  | 86 => ⟨S8192, .i1⟩
  | 87 => ⟨S_, .i32⟩
  | 88 => ⟨S8192, .i32⟩
  | 89 => ⟨S8192, .i32⟩
  | 90 => ⟨S_, .i32⟩
  | 91 => ⟨S_, .i32⟩
  | 92 => ⟨S_, .i32⟩
  | 93 => ⟨S8192, .i32⟩
  | 94 => ⟨S8192, .i32⟩
  | 95 => ⟨S_, .i32⟩
  | 96 => ⟨S8192, .i32⟩
  | 97 => ⟨S8192, .i32⟩
  | 98 => ⟨S_, .i32⟩
  | 99 => ⟨S8192, .i32⟩
  | 100 => ⟨S8192, .i1⟩
  | 101 => ⟨S_, .i32⟩
  | 102 => ⟨S8192, .i32⟩
  | 103 => ⟨S8192, .i32⟩
  | 104 => ⟨S8192, .i32⟩
  | 105 => ⟨S8192x1, .i32⟩
  | 106 => ⟨S8192x64, .f32⟩
  | 107 => ⟨S8192x1024, .f32⟩
  | 108 => ⟨S8192x1, .i1⟩
  | 109 => ⟨S_, .f32⟩
  | 110 => ⟨S8192x1024, .i1⟩
  | 111 => ⟨S8192x1024, .f32⟩
  | 112 => ⟨S8192x1024, .f32⟩
  | 113 => ⟨S8192x1024, .f32⟩
  | 114 => ⟨S_, .i32⟩
  | 115 => ⟨S8192, .i32⟩
  | 116 => ⟨S8192, .i1⟩
  | 117 => ⟨S_, .i32⟩
  | 118 => ⟨S8192, .i32⟩
  | 119 => ⟨S8192, .i1⟩
  | 120 => ⟨S8192, .i1⟩
  | 121 => ⟨S_, .i32⟩
  | 122 => ⟨S8192, .i32⟩
  | 123 => ⟨S8192, .i32⟩
  | 124 => ⟨S_, .i32⟩
  | 125 => ⟨S_, .i32⟩
  | 126 => ⟨S_, .i32⟩
  | 127 => ⟨S8192, .i32⟩
  | _ => ⟨S4x2048, .i32⟩

abbrev hbmTy0_1 (i : Nat) : BufTy := match i % 128 with
  | 0 => ⟨S8192, .i32⟩
  | 1 => ⟨S_, .i32⟩
  | 2 => ⟨S8192, .i32⟩
  | 3 => ⟨S8192, .i32⟩
  | 4 => ⟨S_, .i32⟩
  | 5 => ⟨S8192, .i32⟩
  | 6 => ⟨S8192, .i1⟩
  | 7 => ⟨S_, .i32⟩
  | 8 => ⟨S8192, .i32⟩
  | 9 => ⟨S8192, .i32⟩
  | 10 => ⟨S8192, .i32⟩
  | 11 => ⟨S8192x1, .i32⟩
  | 12 => ⟨S8192x16, .f32⟩
  | 13 => ⟨S8192x1024, .f32⟩
  | 14 => ⟨S8192x1, .i1⟩
  | 15 => ⟨S_, .f32⟩
  | 16 => ⟨S8192x1024, .i1⟩
  | 17 => ⟨S8192x1024, .f32⟩
  | 18 => ⟨S8192x1024, .f32⟩
  | 19 => ⟨S8192x1024, .f32⟩
  | 20 => ⟨S_, .f32⟩
  | 21 => ⟨S8192x1024, .f32⟩
  | 22 => ⟨S8192x1024, .f32⟩
  | 23 => ⟨S4x2048x1024, .f32⟩
  | _ => ⟨S4x2048, .i32⟩

abbrev hbmTy (i : Nat) : BufTy := match i / 128 with
  | 0 => hbmTy0_0 i
  | 1 => hbmTy0_1 i
  | _ => ⟨S4x2048, .i32⟩

abbrev bufTy : (tb : Table) → Fin (tcTables nBuf tb) → BufTy
  | .hbm, ⟨i, _⟩ => hbmTy i
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_c_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v9 : Ref sig .tc := ⟨.hbm, 29, rfl⟩
abbrev main_c_4 : Ref sig .tc := ⟨.hbm, 30, rfl⟩
abbrev main_v10 : Ref sig .tc := ⟨.hbm, 31, rfl⟩
abbrev main_v11 : Ref sig .tc := ⟨.hbm, 32, rfl⟩
abbrev main_c_5 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_6 : Ref sig .tc := ⟨.hbm, 41, rfl⟩
abbrev main_call1_v0 : Ref sig .tc := ⟨.hbm, 42, rfl⟩
abbrev main_call1_v1 : Ref sig .tc := ⟨.hbm, 43, rfl⟩
abbrev main_v19 : Ref sig .tc := ⟨.hbm, 44, rfl⟩
abbrev main_v20 : Ref sig .tc := ⟨.hbm, 45, rfl⟩
abbrev main_c_7 : Ref sig .tc := ⟨.hbm, 46, rfl⟩
abbrev main_v21 : Ref sig .tc := ⟨.hbm, 47, rfl⟩
abbrev main_v22 : Ref sig .tc := ⟨.hbm, 48, rfl⟩
abbrev main_c_8 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_9 : Ref sig .tc := ⟨.hbm, 53, rfl⟩
abbrev main_v26 : Ref sig .tc := ⟨.hbm, 54, rfl⟩
abbrev main_v27 : Ref sig .tc := ⟨.hbm, 55, rfl⟩
abbrev main_c_10 : Ref sig .tc := ⟨.hbm, 56, rfl⟩
abbrev main_c_11 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v28 : Ref sig .tc := ⟨.hbm, 63, rfl⟩
abbrev main_c_12 : Ref sig .tc := ⟨.hbm, 64, rfl⟩
abbrev main_v29 : Ref sig .tc := ⟨.hbm, 65, rfl⟩
abbrev main_v30 : Ref sig .tc := ⟨.hbm, 66, rfl⟩
abbrev main_c_13 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_14 : Ref sig .tc := ⟨.hbm, 75, rfl⟩
abbrev main_call3_v0 : Ref sig .tc := ⟨.hbm, 76, rfl⟩
abbrev main_call3_v1 : Ref sig .tc := ⟨.hbm, 77, rfl⟩
abbrev main_v38 : Ref sig .tc := ⟨.hbm, 78, rfl⟩
abbrev main_v39 : Ref sig .tc := ⟨.hbm, 79, rfl⟩
abbrev main_c_15 : Ref sig .tc := ⟨.hbm, 80, rfl⟩
abbrev main_v40 : Ref sig .tc := ⟨.hbm, 81, rfl⟩
abbrev main_v41 : Ref sig .tc := ⟨.hbm, 82, rfl⟩
abbrev main_c_16 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_c_17 : Ref sig .tc := ⟨.hbm, 87, rfl⟩
abbrev main_v45 : Ref sig .tc := ⟨.hbm, 88, rfl⟩
abbrev main_v46 : Ref sig .tc := ⟨.hbm, 89, rfl⟩
abbrev main_c_18 : Ref sig .tc := ⟨.hbm, 90, rfl⟩
abbrev main_c_19 : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_v47 : Ref sig .tc := ⟨.hbm, 97, rfl⟩
abbrev main_c_20 : Ref sig .tc := ⟨.hbm, 98, rfl⟩
abbrev main_v48 : Ref sig .tc := ⟨.hbm, 99, rfl⟩
abbrev main_v49 : Ref sig .tc := ⟨.hbm, 100, rfl⟩
abbrev main_c_21 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_cst_22 : Ref sig .tc := ⟨.hbm, 109, rfl⟩
abbrev main_call5_v0 : Ref sig .tc := ⟨.hbm, 110, rfl⟩
abbrev main_call5_v1 : Ref sig .tc := ⟨.hbm, 111, rfl⟩
abbrev main_v57 : Ref sig .tc := ⟨.hbm, 112, rfl⟩
abbrev main_v58 : Ref sig .tc := ⟨.hbm, 113, rfl⟩
abbrev main_c_23 : Ref sig .tc := ⟨.hbm, 114, rfl⟩
abbrev main_v59 : Ref sig .tc := ⟨.hbm, 115, rfl⟩
abbrev main_v60 : Ref sig .tc := ⟨.hbm, 116, rfl⟩
abbrev main_c_24 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_c_25 : Ref sig .tc := ⟨.hbm, 121, rfl⟩
abbrev main_v64 : Ref sig .tc := ⟨.hbm, 122, rfl⟩
abbrev main_v65 : Ref sig .tc := ⟨.hbm, 123, rfl⟩
abbrev main_c_26 : Ref sig .tc := ⟨.hbm, 124, rfl⟩
abbrev main_c_27 : Ref sig .tc := ⟨.hbm, 125, rfl⟩
abbrev main_call6_v0 : Ref sig .tc := ⟨.hbm, 126, rfl⟩
abbrev main_call6_v1 : Ref sig .tc := ⟨.hbm, 127, rfl⟩
abbrev main_call6_v2 : Ref sig .tc := ⟨.hbm, 128, rfl⟩
abbrev main_call6_v3 : Ref sig .tc := ⟨.hbm, 129, rfl⟩
abbrev main_call6_v4 : Ref sig .tc := ⟨.hbm, 130, rfl⟩
abbrev main_v66 : Ref sig .tc := ⟨.hbm, 131, rfl⟩
abbrev main_c_28 : Ref sig .tc := ⟨.hbm, 132, rfl⟩
abbrev main_v67 : Ref sig .tc := ⟨.hbm, 133, rfl⟩
abbrev main_v68 : Ref sig .tc := ⟨.hbm, 134, rfl⟩
abbrev main_c_29 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_cst_30 : Ref sig .tc := ⟨.hbm, 143, rfl⟩
abbrev main_call7_v0 : Ref sig .tc := ⟨.hbm, 144, rfl⟩
abbrev main_call7_v1 : Ref sig .tc := ⟨.hbm, 145, rfl⟩
abbrev main_v76 : Ref sig .tc := ⟨.hbm, 146, rfl⟩
abbrev main_v77 : Ref sig .tc := ⟨.hbm, 147, rfl⟩
abbrev main_cst_31 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩

abbrev nD : Nat := 1
abbrev τ : Topo := Topo.v7x

variable {F : FTy → Type} [FloatOps F]

class Facts₀ : Prop where
  shapeCasts_S4x2048_S8192 : S4x2048.ShapeCasts S8192
  bcast_S_S8192x1024 : S_.BroadcastsInDim S8192x1024 (![] : Fin 0 → Fin S8192x1024.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  shapeCasts_S8192x1024_S4x2048x1024 : S8192x1024.ShapeCasts S4x2048x1024
  gather_S20000x1024_S8192x1_S8192x1024_1_0_n_n_0_1_11024_wf : GatherDims.WF S20000x1024 S8192x1 S8192x1024 [1] [0] [] [0] [] 1 ![1, 1024]
  dot_S8192x1024_S1024x1024_S8192x1024_1_0_0_1_n_n_wf : DotDims.WF S8192x1024 S1024x1024 S8192x1024 [1] [0] [0] [1] [] []
  gather_S20000x256_S8192x1_S8192x256_1_0_n_n_0_1_1256_wf : GatherDims.WF S20000x256 S8192x1 S8192x256 [1] [0] [] [0] [] 1 ![1, 256]
  dot_S8192x256_S256x1024_S8192x1024_1_0_0_1_n_n_wf : DotDims.WF S8192x256 S256x1024 S8192x1024 [1] [0] [0] [1] [] []
  gather_S160000x64_S8192x1_S8192x64_1_0_n_n_0_1_164_wf : GatherDims.WF S160000x64 S8192x1 S8192x64 [1] [0] [] [0] [] 1 ![1, 64]
  dot_S8192x64_S64x1024_S8192x1024_1_0_0_1_n_n_wf : DotDims.WF S8192x64 S64x1024 S8192x1024 [1] [0] [0] [1] [] []
  gather_S67735x16_S8192x1_S8192x16_1_0_n_n_0_1_116_wf : GatherDims.WF S67735x16 S8192x1 S8192x16 [1] [0] [] [0] [] 1 ![1, 16]
  dot_S8192x16_S16x1024_S8192x1024_1_0_0_1_n_n_wf : DotDims.WF S8192x16 S16x1024 S8192x1024 [1] [0] [0] [1] [] []

variable [Facts₀]

def gather_S20000x1024_S8192x1_S8192x1024_1_0_n_n_0_1_11024 : GatherDims S20000x1024 S8192x1 S8192x1024 where
  offsetDims := [1]
  collapsedSliceDims := [0]
  operandBatchingDims := []
  startIndicesBatchingDims := []
  startIndexMap := [0]
  indexVectorDim := 1
  sliceSizes := ![1, 1024]
  wf := gather_S20000x1024_S8192x1_S8192x1024_1_0_n_n_0_1_11024_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def gather_S20000x256_S8192x1_S8192x256_1_0_n_n_0_1_1256 : GatherDims S20000x256 S8192x1 S8192x256 where
  offsetDims := [1]
  collapsedSliceDims := [0]
  operandBatchingDims := []
  startIndicesBatchingDims := []
  startIndexMap := [0]
  indexVectorDim := 1
  sliceSizes := ![1, 256]
  wf := gather_S20000x256_S8192x1_S8192x256_1_0_n_n_0_1_1256_wf
def dot_S8192x256_S256x1024_S8192x1024_1_0_0_1_n_n : DotDims S8192x256 S256x1024 S8192x1024 where
  lhsContracting := [1]
  rhsContracting := [0]
  lhsNonContracting := [0]
  rhsNonContracting := [1]
  lhsBatch := []
  rhsBatch := []
  wf := dot_S8192x256_S256x1024_S8192x1024_1_0_0_1_n_n_wf
def gather_S160000x64_S8192x1_S8192x64_1_0_n_n_0_1_164 : GatherDims S160000x64 S8192x1 S8192x64 where
  offsetDims := [1]
  collapsedSliceDims := [0]
  operandBatchingDims := []
  startIndicesBatchingDims := []
  startIndexMap := [0]
  indexVectorDim := 1
  sliceSizes := ![1, 64]
  wf := gather_S160000x64_S8192x1_S8192x64_1_0_n_n_0_1_164_wf
def dot_S8192x64_S64x1024_S8192x1024_1_0_0_1_n_n : DotDims S8192x64 S64x1024 S8192x1024 where
  lhsContracting := [1]
  rhsContracting := [0]
  lhsNonContracting := [0]
  rhsNonContracting := [1]
  lhsBatch := []
  rhsBatch := []
  wf := dot_S8192x64_S64x1024_S8192x1024_1_0_0_1_n_n_wf
def gather_S67735x16_S8192x1_S8192x16_1_0_n_n_0_1_116 : GatherDims S67735x16 S8192x1 S8192x16 where
  offsetDims := [1]
  collapsedSliceDims := [0]
  operandBatchingDims := []
  startIndicesBatchingDims := []
  startIndexMap := [0]
  indexVectorDim := 1
  sliceSizes := ![1, 16]
  wf := gather_S67735x16_S8192x1_S8192x16_1_0_n_n_0_1_116_wf
def dot_S8192x16_S16x1024_S8192x1024_1_0_0_1_n_n : DotDims S8192x16 S16x1024 S8192x1024 where
  lhsContracting := [1]
  rhsContracting := [0]
  lhsNonContracting := [0]
  rhsNonContracting := [1]
  lhsBatch := []
  rhsBatch := []
  wf := dot_S8192x16_S16x1024_S8192x1024_1_0_0_1_n_n_wf

class Facts : Prop extends Facts₀ where

variable [Facts]
-- ==== Proof.RegionBits.lean ====
/-
  The run of the gather-and-project program at any float instance, and from it the frame: every weakly fair
  execution ends, nothing faults, and the nine argument arrays end as they began.

  @main is seventeen stretches of host operations, ONE pipelined region, and a closing reshape. The stretches
  compute, bucket by bucket (the vocabulary is cut at 20000, 40000 and 200000), the mask "this token lies in the
  bucket", the token's row index clipped into the bucket's table, and the gathered rows with the rows of tokens
  outside the bucket set to zero, rounded to bf16; then they join the four row sets side by side into one
  [8192, 1360] matrix (1360 = 1024 + 256 + 64 + 16) and stack the four projection matrices, rounded to bf16, into one
  [1360, 1024] matrix. The region runs over four grid points: point t takes rows 2048 t … 2048 t + 2047 of the joined
  rows and the WHOLE stacked projection, multiplies them, scales the product by 32, and writes rows
  2048 t … 2048 t + 2047 of the [8192, 1024] result. The reshape makes that [4, 2048, 1024].

  None of this writes an argument array: every host operation writes its own result buffer, the region writes
  back only its output window's array, and the reshape writes the final result.

  What is proved here: the contents each buffer has when the region is entered (`entry`) as the fold of the
  stretches over the launch memory, with each argument array still as launched; each window's block at a grid point
  (`blockAt`); what the body leaves in its output buffer, as one function of the two input blocks (`scaledProduct`);
  the body's triple; the pipeline's proof data and the body obligation at a generic point; the run of @main around
  the region (`run_main`), whose post names the result array after the region; and the frame (`frame`).
-/
import proofs.«138749_j55327768707951_1_alg».proof.Proof.Gen.Kernel.Launch
import proofs.«138749_j55327768707951_1_alg».proof.Proof.Gen.Kernel.Skeleton
import proofs.«138749_j55327768707951_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The seventeen stretches of host operations before the region, in order. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- Core `c`'s buffer contents when the region is entered: the stretches folded over the launch memory. -/
abbrev entry0 (c : Dev nD) : Valuation τ sig (Elt F) := StableHlo.after (List.flatten prefixOps) (fun b => m (c, b))
/-- The same, read at a TensorCore reference. -/
abbrev entry (c : Dev nD) (b : Ref sig .tc) : Buf (Elt F) ((c : Thread nD τ).loc b) := entry0 m c (Proc.devRef .tc b)

/-! No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the stretches, the region, the reshape: it reduces to the region entered at `entry` and continued by the
    reshape. -/
theorem hmain (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main prefixOps [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- The reshape after the region touches only unscoped TensorCore buffers, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes none of the three arrays the region stages (it writes the final result only). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- A buffer none of the stretches writes is found by the region as launched: each operation writes its own result
    buffer, and that is another reference. -/
local macro "unwritten_by_prefix" : tactic => `(tactic| (
  refine StableHlo.after_of_forall_not_mem (b := Proc.devRef .tc _) _ _ (List.forall_iff_forall_mem.mp ?_)
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (by decide)))

theorem entry_arg0 (c : Dev nD) : entry m c main_arg0 = m ((c : Thread nD τ).loc main_arg0) := by
  unwritten_by_prefix
theorem entry_arg1 (c : Dev nD) : entry m c main_arg1 = m ((c : Thread nD τ).loc main_arg1) := by
  unwritten_by_prefix
theorem entry_arg2 (c : Dev nD) : entry m c main_arg2 = m ((c : Thread nD τ).loc main_arg2) := by
  unwritten_by_prefix
theorem entry_arg3 (c : Dev nD) : entry m c main_arg3 = m ((c : Thread nD τ).loc main_arg3) := by
  unwritten_by_prefix
theorem entry_arg4 (c : Dev nD) : entry m c main_arg4 = m ((c : Thread nD τ).loc main_arg4) := by
  unwritten_by_prefix
theorem entry_arg5 (c : Dev nD) : entry m c main_arg5 = m ((c : Thread nD τ).loc main_arg5) := by
  unwritten_by_prefix
theorem entry_arg6 (c : Dev nD) : entry m c main_arg6 = m ((c : Thread nD τ).loc main_arg6) := by
  unwritten_by_prefix
theorem entry_arg7 (c : Dev nD) : entry m c main_arg7 = m ((c : Thread nD τ).loc main_arg7) := by
  unwritten_by_prefix
theorem entry_arg8 (c : Dev nD) : entry m c main_arg8 = m ((c : Thread nD τ).loc main_arg8) := by
  unwritten_by_prefix

/-- After the reshape, a buffer that is neither one of the region's three arrays nor the final result holds what it
    held when the region was entered. -/
theorem past_tail (dats : (p : Fin 1) → (c : Dev nD) → Dat τ (Elt F) Unit ℕ (UR sig nD τ) ℕ (cfgs p) c) (c : Dev nD) (b : Ref sig .tc)
    (harr : ∀ w, Pipeline.arrRef spec0 w ≠ b) (hres : b ≠ main_v80) :
    Pipeline.afterTail₀ cfgs dats 0 (entry0 m) [hostOps1] c b = entry m c b := by
  unfold Pipeline.afterTail₀
  rw [StableHlo.after_of_forall_not_mem (b := Proc.devRef .tc b) _ _ (fun op hop => ?_)]
  · exact Pipeline.withArrays_of_ne spec0 c (entry0 m c) _ b harr
  · simp only [hostOps1, List.flatten_cons, List.flatten_nil, List.append_nil, List.mem_cons, List.mem_nil_iff, or_false] at hop
    rcases hop with rfl
    simp only [StableHlo.reshape_writes, Finset.mem_singleton]
    exact StableHlo.devRef_ne_of_ne hres

/-! ## The windows' blocks -/

/-- Window `w`'s block at grid point `t`, read off its array as the region finds it: for the joined rows, rows
    2048 t … 2048 t + 2047; for the stacked projection, all of it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The staging buffer of the joined rows holds the point's block when the body starts, for any proof data whose
    array is the entry contents and whose body leaves the block in place. -/
theorem rows_found {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- The staging buffer of the stacked projection holds it at every point, though it is fetched at the first only:
    its block index never moves. -/
theorem proj_found {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The frame from a run around the region -/

/-- From a run whose post has every other unscoped buffer at its contents after the reshape: no argument array is
    one of the region's arrays or the final result, so each is as the region found it, and that is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (entry0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans
        ((past_tail m dats c main_arg0 (by decide) (by decide)).trans (entry_arg0 m c)),
      ((h c).2 main_arg1 (Pipeline.mem_restRefs_of main_arg1 (by decide) (by decide))).trans
        ((past_tail m dats c main_arg1 (by decide) (by decide)).trans (entry_arg1 m c)),
      ((h c).2 main_arg2 (Pipeline.mem_restRefs_of main_arg2 (by decide) (by decide))).trans
        ((past_tail m dats c main_arg2 (by decide) (by decide)).trans (entry_arg2 m c)),
      ((h c).2 main_arg3 (Pipeline.mem_restRefs_of main_arg3 (by decide) (by decide))).trans
        ((past_tail m dats c main_arg3 (by decide) (by decide)).trans (entry_arg3 m c)),
      ((h c).2 main_arg4 (Pipeline.mem_restRefs_of main_arg4 (by decide) (by decide))).trans
        ((past_tail m dats c main_arg4 (by decide) (by decide)).trans (entry_arg4 m c)),
      ((h c).2 main_arg5 (Pipeline.mem_restRefs_of main_arg5 (by decide) (by decide))).trans
        ((past_tail m dats c main_arg5 (by decide) (by decide)).trans (entry_arg5 m c)),
      ((h c).2 main_arg6 (Pipeline.mem_restRefs_of main_arg6 (by decide) (by decide))).trans
        ((past_tail m dats c main_arg6 (by decide) (by decide)).trans (entry_arg6 m c)),
      ((h c).2 main_arg7 (Pipeline.mem_restRefs_of main_arg7 (by decide) (by decide))).trans
        ((past_tail m dats c main_arg7 (by decide) (by decide)).trans (entry_arg7 m c)),
      ((h c).2 main_arg8 (Pipeline.mem_restRefs_of main_arg8 (by decide) (by decide))).trans
        ((past_tail m dats c main_arg8 (by decide) (by decide)).trans (entry_arg8 m c))⟩) h

/-! ## The body -/

/-- The whole block of each window: the body loads and stores nothing smaller. -/
abbrev allRows : Rect S2048x1360 := Rect.unit (s := S2048x1360) ![0, 0] S2048x1360.size inb_S2048x1360_S2048x1360_0_0
abbrev allProj : Rect S1360x1024 := Rect.unit (s := S1360x1024) ![0, 0] S1360x1024.size inb_S1360x1024_S1360x1024_0_0
abbrev allOut : Rect S2048x1024 := Rect.unit (s := S2048x1024) ![0, 0] S2048x1024.size inb_S2048x1024_S2048x1024_0_0

/-- What the body leaves in the output buffer: its one store, of the product of the two loaded blocks scaled by 32. -/
def scaledProduct (x0 : Vec F S2048x1360 .bf16) (x1 : Vec F S1360x1024 .bf16) : Vec F S2048x1024 .f32 :=
  View.canon [⟨allOut, k0_pay1 (View.ld x0 allRows) (View.ld x1 allProj)⟩]

/-- That store covers the buffer. -/
theorem store_covers (p0 : Vec F S2048x1024 .f32) (y : S2048x1024.Idx) :
    ∃ pc ∈ ([⟨allOut, p0⟩] : List (View.Piece (Elt F) S2048x1024 .f32)), y ∈ pc.1.set :=
  View.cover_of_tiled [⟨allOut, p0⟩] S2048x1024.size (by rfl) y

set_option maxHeartbeats 1000000 in
/-- The body on whole staging buffers, the inputs' at contents `x0`, `x1` and the output's at anything: it loads the
    two inputs (and the output, whose value it does not use), stores the scaled product over the whole output, and
    returns with the inputs as they were. -/
theorem body_triple (c : Dev nD) (E : Set ℕ) (i : grid0.Coords)
    (arg1 : Memref sig .tc .vmem S2048x1360 .bf16) (harg1 : arg1.IsWhole) (arg2 : Memref sig .tc .vmem S1360x1024 .bf16) (harg2 : arg2.IsWhole)
    (arg3 : Memref sig .tc .vmem S2048x1024 .f32) (harg3 : arg3.IsWhole)
    (x0 : Vec F S2048x1360 .bf16) (x1 : Vec F S1360x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (scaledProduct x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The pipeline's proof data -/

/-- On core `c`: the three arrays as the region finds them; after the body at point `t` the two input buffers still at
    their blocks and the output buffer at the scaled product of those blocks; the invariant is the scoped rest and the
    generator register, untouched; nothing is owed; full shares. -/
def pdata (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => scaledProduct (blockAt m c 0 t) (blockAt m c 1 t)
  Φ _ := Pipeline.ΦA spec0 c
  q _ := fullShare
  owed _ := 0

theorem pdata_A (c : Dev nD) (w : Fin cfg0.W) : (pdata m 0 c).A w = entry m c (Pipeline.arrRef spec0 w) := by
  dsimp only [pdata]

theorem after_rows (c : Dev nD) (t : Fin cfg0.N) : (pdata m 0 c).after 0 t = blockAt m c 0 t := by dsimp only [pdata]
theorem after_proj (c : Dev nD) (t : Fin cfg0.N) : (pdata m 0 c).after 1 t = blockAt m c 1 t := by dsimp only [pdata]
theorem after_out (c : Dev nD) (t : Fin cfg0.N) :
    (pdata m 0 c).after 2 t = scaledProduct (blockAt m c 0 t) (blockAt m c 1 t) := by dsimp only [pdata]

theorem before_rows (c : Dev nD) (t : Fin cfg0.N) (d) : (pdata m 0 c).before 0 t d = blockAt m c 0 t :=
  rows_found m (pdata m 0 c) (pdata_A m c 0) (after_rows m c) t d
theorem before_proj (c : Dev nD) (t : Fin cfg0.N) (d) : (pdata m 0 c).before 1 t d = blockAt m c 1 t :=
  proj_found m (pdata m 0 c) (pdata_A m c 1) (after_proj m c) t d

/-! ## The body obligation, at a generic point -/

/-- What the body is called with at point `t`, the windows one by one, -/
def bodyPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d)))

/-- and what it returns. -/
def bodyPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t))

/-- The body at any point: the two input buffers hold their blocks, so the body's triple applies; the invariant and
    the core's debts pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_proj]
  rw [show (pdata m 0 c).Φ t.succ = (pdata m 0 c).Φ t.castSucc from rfl,
    show (pdata m 0 c).owesAt () t.succ = (pdata m 0 c).owesAt () t.castSucc from rfl,
    after_rows, after_proj, after_out]
  iintro ⟨HΦ, Ho, ⟨%d0, H0⟩, ⟨%d1, H1⟩, ⟨%d2, H2⟩⟩
  iapply (body_triple c Set.univ _ _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (pdata (F := F) m 0 c) (defs₀ (F := F)) Variants.none () Set.univ := fun t => by
  rw [bigSep_W0, bigSep_W0]
  exact body_at_point m c t

/-! ## The run and the frame -/

set_option backward.isDefEq.respectTransparency.types false in
/-- From any memory with zero counters every weakly fair execution of @main ends, with each of the region's three
    arrays at what the write-backs leave — the two inputs as entered, the result array at the blocks the four points
    wrote — and every other unscoped buffer at its contents after the closing reshape. -/
theorem run_main : θ_run defs (onTc (τ := τ) (main (F := F))) (s₀ m ρ)
    (Pipeline.FramePost cfgs (pdata m) 0 (Pipeline.afterTail₀ cfgs (pdata m) 0 (entry0 m) [hostOps1])) :=
  Pipeline.θ_run_frame_around cfgs (pdata m) (0 : Fin 1) launch0 defs₀ Variants.none m ρ main
    (hbody := fun c => (body_obligation m c).loose) (hshare := fun c => (pdata m 0 c).share_full fun _ => rfl)
    (howed := fun _ _ => rfl) (V₀ := entry0 m) (opss := [hostOps1]) (hsub := tail_sub) (hfresh := tail_fresh) (hkeep := tail_keeps)
    (hmain := hmain m Variants.none) (hA := pdata_A m) (hΦ := fun _ _ => rfl)

/-- The frame: the program runs to the end and leaves its nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (pdata m) (run_main m ρ)

end Cert.Kernel.Region

end
-- ==== Proof.RegionIdeal.lean ====
/-
  The run of the gather-and-project program at any float instance, and from it the frame: every weakly fair
  execution ends, nothing faults, and the nine argument arrays end as they began.

  @main is seventeen stretches of host operations, ONE pipelined region, and a closing reshape. The stretches
  compute, bucket by bucket (the vocabulary is cut at 20000, 40000 and 200000), the mask "this token lies in the
  bucket", the token's row index clipped into the bucket's table, and the gathered rows with the rows of tokens
  outside the bucket set to zero, rounded to bf16; then they join the four row sets side by side into one
  [8192, 1360] matrix (1360 = 1024 + 256 + 64 + 16) and stack the four projection matrices, rounded to bf16, into one
  [1360, 1024] matrix. The region runs over four grid points: point t takes rows 2048 t … 2048 t + 2047 of the joined
  rows and the WHOLE stacked projection, multiplies them, scales the product by 32, and writes rows
  2048 t … 2048 t + 2047 of the [8192, 1024] result. The reshape makes that [4, 2048, 1024].

  None of this writes an argument array: every host operation writes its own result buffer, the region writes
  back only its output window's array, and the reshape writes the final result.

  What is proved here: the contents each buffer has when the region is entered (`entry`) as the fold of the
  stretches over the launch memory, with each argument array still as launched; each window's block at a grid point
  (`blockAt`); what the body leaves in its output buffer, as one function of the two input blocks (`scaledProduct`);
  the body's triple; the pipeline's proof data and the body obligation at a generic point; the run of @main around
  the region (`run_main`), whose post names the result array after the region; and the frame (`frame`).
-/
import proofs.«138749_j55327768707951_1_alg».proof.Proof.Gen.KernelIdeal.Launch
import proofs.«138749_j55327768707951_1_alg».proof.Proof.Gen.KernelIdeal.Skeleton
import proofs.«138749_j55327768707951_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The seventeen stretches of host operations before the region, in order. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- Core `c`'s buffer contents when the region is entered: the stretches folded over the launch memory. -/
abbrev entry0 (c : Dev nD) : Valuation τ sig (Elt F) := StableHlo.after (List.flatten prefixOps) (fun b => m (c, b))
/-- The same, read at a TensorCore reference. -/
abbrev entry (c : Dev nD) (b : Ref sig .tc) : Buf (Elt F) ((c : Thread nD τ).loc b) := entry0 m c (Proc.devRef .tc b)

/-! No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the stretches, the region, the reshape: it reduces to the region entered at `entry` and continued by the
    reshape. -/
theorem hmain (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main prefixOps [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- The reshape after the region touches only unscoped TensorCore buffers, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes none of the three arrays the region stages (it writes the final result only). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- A buffer none of the stretches writes is found by the region as launched: each operation writes its own result
    buffer, and that is another reference. -/
local macro "unwritten_by_prefix" : tactic => `(tactic| (
  refine StableHlo.after_of_forall_not_mem (b := Proc.devRef .tc _) _ _ (List.forall_iff_forall_mem.mp ?_)
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (by decide)))

theorem entry_arg0 (c : Dev nD) : entry m c main_arg0 = m ((c : Thread nD τ).loc main_arg0) := by
  unwritten_by_prefix
theorem entry_arg1 (c : Dev nD) : entry m c main_arg1 = m ((c : Thread nD τ).loc main_arg1) := by
  unwritten_by_prefix
theorem entry_arg2 (c : Dev nD) : entry m c main_arg2 = m ((c : Thread nD τ).loc main_arg2) := by
  unwritten_by_prefix
theorem entry_arg3 (c : Dev nD) : entry m c main_arg3 = m ((c : Thread nD τ).loc main_arg3) := by
  unwritten_by_prefix
theorem entry_arg4 (c : Dev nD) : entry m c main_arg4 = m ((c : Thread nD τ).loc main_arg4) := by
  unwritten_by_prefix
theorem entry_arg5 (c : Dev nD) : entry m c main_arg5 = m ((c : Thread nD τ).loc main_arg5) := by
  unwritten_by_prefix
theorem entry_arg6 (c : Dev nD) : entry m c main_arg6 = m ((c : Thread nD τ).loc main_arg6) := by
  unwritten_by_prefix
theorem entry_arg7 (c : Dev nD) : entry m c main_arg7 = m ((c : Thread nD τ).loc main_arg7) := by
  unwritten_by_prefix
theorem entry_arg8 (c : Dev nD) : entry m c main_arg8 = m ((c : Thread nD τ).loc main_arg8) := by
  unwritten_by_prefix

/-- After the reshape, a buffer that is neither one of the region's three arrays nor the final result holds what it
    held when the region was entered. -/
theorem past_tail (dats : (p : Fin 1) → (c : Dev nD) → Dat τ (Elt F) Unit ℕ (UR sig nD τ) ℕ (cfgs p) c) (c : Dev nD) (b : Ref sig .tc)
    (harr : ∀ w, Pipeline.arrRef spec0 w ≠ b) (hres : b ≠ main_v80) :
    Pipeline.afterTail₀ cfgs dats 0 (entry0 m) [hostOps1] c b = entry m c b := by
  unfold Pipeline.afterTail₀
  rw [StableHlo.after_of_forall_not_mem (b := Proc.devRef .tc b) _ _ (fun op hop => ?_)]
  · exact Pipeline.withArrays_of_ne spec0 c (entry0 m c) _ b harr
  · simp only [hostOps1, List.flatten_cons, List.flatten_nil, List.append_nil, List.mem_cons, List.mem_nil_iff, or_false] at hop
    rcases hop with rfl
    simp only [StableHlo.reshape_writes, Finset.mem_singleton]
    exact StableHlo.devRef_ne_of_ne hres

/-! ## The windows' blocks -/

/-- Window `w`'s block at grid point `t`, read off its array as the region finds it: for the joined rows, rows
    2048 t … 2048 t + 2047; for the stacked projection, all of it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The staging buffer of the joined rows holds the point's block when the body starts, for any proof data whose
    array is the entry contents and whose body leaves the block in place. -/
theorem rows_found {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- The staging buffer of the stacked projection holds it at every point, though it is fetched at the first only:
    its block index never moves. -/
theorem proj_found {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The frame from a run around the region -/

/-- From a run whose post has every other unscoped buffer at its contents after the reshape: no argument array is
    one of the region's arrays or the final result, so each is as the region found it, and that is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (entry0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans
        ((past_tail m dats c main_arg0 (by decide) (by decide)).trans (entry_arg0 m c)),
      ((h c).2 main_arg1 (Pipeline.mem_restRefs_of main_arg1 (by decide) (by decide))).trans
        ((past_tail m dats c main_arg1 (by decide) (by decide)).trans (entry_arg1 m c)),
      ((h c).2 main_arg2 (Pipeline.mem_restRefs_of main_arg2 (by decide) (by decide))).trans
        ((past_tail m dats c main_arg2 (by decide) (by decide)).trans (entry_arg2 m c)),
      ((h c).2 main_arg3 (Pipeline.mem_restRefs_of main_arg3 (by decide) (by decide))).trans
        ((past_tail m dats c main_arg3 (by decide) (by decide)).trans (entry_arg3 m c)),
      ((h c).2 main_arg4 (Pipeline.mem_restRefs_of main_arg4 (by decide) (by decide))).trans
        ((past_tail m dats c main_arg4 (by decide) (by decide)).trans (entry_arg4 m c)),
      ((h c).2 main_arg5 (Pipeline.mem_restRefs_of main_arg5 (by decide) (by decide))).trans
        ((past_tail m dats c main_arg5 (by decide) (by decide)).trans (entry_arg5 m c)),
      ((h c).2 main_arg6 (Pipeline.mem_restRefs_of main_arg6 (by decide) (by decide))).trans
        ((past_tail m dats c main_arg6 (by decide) (by decide)).trans (entry_arg6 m c)),
      ((h c).2 main_arg7 (Pipeline.mem_restRefs_of main_arg7 (by decide) (by decide))).trans
        ((past_tail m dats c main_arg7 (by decide) (by decide)).trans (entry_arg7 m c)),
      ((h c).2 main_arg8 (Pipeline.mem_restRefs_of main_arg8 (by decide) (by decide))).trans
        ((past_tail m dats c main_arg8 (by decide) (by decide)).trans (entry_arg8 m c))⟩) h

/-! ## The body -/

/-- The whole block of each window: the body loads and stores nothing smaller. -/
abbrev allRows : Rect S2048x1360 := Rect.unit (s := S2048x1360) ![0, 0] S2048x1360.size inb_S2048x1360_S2048x1360_0_0
abbrev allProj : Rect S1360x1024 := Rect.unit (s := S1360x1024) ![0, 0] S1360x1024.size inb_S1360x1024_S1360x1024_0_0
abbrev allOut : Rect S2048x1024 := Rect.unit (s := S2048x1024) ![0, 0] S2048x1024.size inb_S2048x1024_S2048x1024_0_0

/-- What the body leaves in the output buffer: its one store, of the product of the two loaded blocks scaled by 32. -/
def scaledProduct (x0 : Vec F S2048x1360 .bf16) (x1 : Vec F S1360x1024 .bf16) : Vec F S2048x1024 .f32 :=
  View.canon [⟨allOut, k0_pay1 (View.ld x0 allRows) (View.ld x1 allProj)⟩]

/-- That store covers the buffer. -/
theorem store_covers (p0 : Vec F S2048x1024 .f32) (y : S2048x1024.Idx) :
    ∃ pc ∈ ([⟨allOut, p0⟩] : List (View.Piece (Elt F) S2048x1024 .f32)), y ∈ pc.1.set :=
  View.cover_of_tiled [⟨allOut, p0⟩] S2048x1024.size (by rfl) y

set_option maxHeartbeats 1000000 in
/-- The body on whole staging buffers, the inputs' at contents `x0`, `x1` and the output's at anything: it loads the
    two inputs (and the output, whose value it does not use), stores the scaled product over the whole output, and
    returns with the inputs as they were. -/
theorem body_triple (c : Dev nD) (E : Set ℕ) (i : grid0.Coords)
    (arg1 : Memref sig .tc .vmem S2048x1360 .bf16) (harg1 : arg1.IsWhole) (arg2 : Memref sig .tc .vmem S1360x1024 .bf16) (harg2 : arg2.IsWhole)
    (arg3 : Memref sig .tc .vmem S2048x1024 .f32) (harg3 : arg3.IsWhole)
    (x0 : Vec F S2048x1360 .bf16) (x1 : Vec F S1360x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (scaledProduct x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The pipeline's proof data -/

/-- On core `c`: the three arrays as the region finds them; after the body at point `t` the two input buffers still at
    their blocks and the output buffer at the scaled product of those blocks; the invariant is the scoped rest and the
    generator register, untouched; nothing is owed; full shares. -/
def pdata (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => scaledProduct (blockAt m c 0 t) (blockAt m c 1 t)
  Φ _ := Pipeline.ΦA spec0 c
  q _ := fullShare
  owed _ := 0

theorem pdata_A (c : Dev nD) (w : Fin cfg0.W) : (pdata m 0 c).A w = entry m c (Pipeline.arrRef spec0 w) := by
  dsimp only [pdata]

theorem after_rows (c : Dev nD) (t : Fin cfg0.N) : (pdata m 0 c).after 0 t = blockAt m c 0 t := by dsimp only [pdata]
theorem after_proj (c : Dev nD) (t : Fin cfg0.N) : (pdata m 0 c).after 1 t = blockAt m c 1 t := by dsimp only [pdata]
theorem after_out (c : Dev nD) (t : Fin cfg0.N) :
    (pdata m 0 c).after 2 t = scaledProduct (blockAt m c 0 t) (blockAt m c 1 t) := by dsimp only [pdata]

theorem before_rows (c : Dev nD) (t : Fin cfg0.N) (d) : (pdata m 0 c).before 0 t d = blockAt m c 0 t :=
  rows_found m (pdata m 0 c) (pdata_A m c 0) (after_rows m c) t d
theorem before_proj (c : Dev nD) (t : Fin cfg0.N) (d) : (pdata m 0 c).before 1 t d = blockAt m c 1 t :=
  proj_found m (pdata m 0 c) (pdata_A m c 1) (after_proj m c) t d

/-! ## The body obligation, at a generic point -/

/-- What the body is called with at point `t`, the windows one by one, -/
def bodyPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d)))

/-- and what it returns. -/
def bodyPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t))

/-- The body at any point: the two input buffers hold their blocks, so the body's triple applies; the invariant and
    the core's debts pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_proj]
  rw [show (pdata m 0 c).Φ t.succ = (pdata m 0 c).Φ t.castSucc from rfl,
    show (pdata m 0 c).owesAt () t.succ = (pdata m 0 c).owesAt () t.castSucc from rfl,
    after_rows, after_proj, after_out]
  iintro ⟨HΦ, Ho, ⟨%d0, H0⟩, ⟨%d1, H1⟩, ⟨%d2, H2⟩⟩
  iapply (body_triple c Set.univ _ _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (pdata (F := F) m 0 c) (defs₀ (F := F)) Variants.none () Set.univ := fun t => by
  rw [bigSep_W0, bigSep_W0]
  exact body_at_point m c t

/-! ## The run and the frame -/

set_option backward.isDefEq.respectTransparency.types false in
/-- From any memory with zero counters every weakly fair execution of @main ends, with each of the region's three
    arrays at what the write-backs leave — the two inputs as entered, the result array at the blocks the four points
    wrote — and every other unscoped buffer at its contents after the closing reshape. -/
theorem run_main : θ_run defs (onTc (τ := τ) (main (F := F))) (s₀ m ρ)
    (Pipeline.FramePost cfgs (pdata m) 0 (Pipeline.afterTail₀ cfgs (pdata m) 0 (entry0 m) [hostOps1])) :=
  Pipeline.θ_run_frame_around cfgs (pdata m) (0 : Fin 1) launch0 defs₀ Variants.none m ρ main
    (hbody := fun c => (body_obligation m c).loose) (hshare := fun c => (pdata m 0 c).share_full fun _ => rfl)
    (howed := fun _ _ => rfl) (V₀ := entry0 m) (opss := [hostOps1]) (hsub := tail_sub) (hfresh := tail_fresh) (hkeep := tail_keeps)
    (hmain := hmain m Variants.none) (hA := pdata_A m) (hΦ := fun _ _ => rfl)

/-- The frame: the program runs to the end and leaves its nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (pdata m) (run_main m ρ)

end Cert.KernelIdeal.Region

end
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.LibPlainDot.lean ====
/-
  General facts about plain matrix products read as extended reals, independent of any program.
  A contraction whose dimension numbers are the plain ones (left columns against right rows, no batch axis) is,
  entry by entry, the textbook sum  Σ_c A(a,c)·B(c,b):  for the host's product, and for a kernel's product
  accumulated into zero, whatever name the dimension record carries.
-/
import proofs.«138749_j55327768707951_1_alg».proof.Proof.LibPlainMatmul

noncomputable section

namespace Idealize.ShloMosaic.LibPlainDot

open Idealize.ShloMosaic Idealize.ShloMosaic.ValueIdx

/-- The host's plain product of an m×k by a k×n matrix at the entry (a, b): Σ_c A(a,c)·B(c,b). -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) := by
  show FloatOps.dotGeneral (DotDims.plain m k n) prec .single A B (ix2 a b) = _
  -- the host's product is the bare sum over the contraction's index set, which has the one coordinate c
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left factor sits at row a, column c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right factor sits at row c, column b
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-- The same for a dimension record that is the plain one under another name. -/
theorem dotGeneral_apply_of_plain {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd; exact dotGeneral_plain_apply prec A B a b

/-- A kernel's product into the zero splat, for a dimension record that is the plain one under another name. -/
theorem matmul_zero_apply_of_plain {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul d prec A B (constant (⟨2, ![m, n]⟩ : Shape) .f32 0x00000000#32) (ix2 a b)
      = ∑ c : Fin k, A (ix2 a c) * B (ix2 c b) := by
  subst hd; exact LibPlainMatmul.matmul_plain_zero_apply prec A B a b

end Idealize.ShloMosaic.LibPlainDot

end
-- ==== Proof.Spec.lean ====
/-
  The mathematics of the gather-and-project computation, stated over arrays and free of any program.

  There are 8192 tokens and four vocabulary buckets; bucket i has feature width d_i (1024, 256, 64, 16; together 1360).
  For each bucket we are given a column of mask bits, one per token ("the token lies in the bucket"), the token rows
  R_i gathered from the bucket's table ([8192, d_i]) and the bucket's projection P_i ([d_i, 1024]).

  One way to compute the result: zero the rows of R_i whose token is outside bucket i, lay the four row sets side
  by side into a [8192, 1360] matrix, stack the four projections into a [1360, 1024] matrix, multiply, scale by 32.
  The other: multiply each R_i by P_i, zero the product's rows whose token is outside the bucket, add the four to a
  zero matrix, scale by 32.

  They agree entry by entry on the extended reals. The contraction over the joined axis is the sum of the four
  contractions over the pieces (sums on the extended reals are commutative and associative, so no finiteness is
  needed). In a piece whose token is outside the bucket every term is 0 · p = 0, so the piece contributes 0, which is
  what the other side writes there; in a piece whose token is inside, both sides have the same sum.
-/
import Idealize.ShloMosaic.PureOps.Ideal.Laws
import Idealize.ShloMosaic.Lib.ValueIdx
import Idealize.ShloMosaic.Lib.Pipeline.Value
import Idealize.ShloMosaic.Lib.IdealHost
import proofs.«138749_j55327768707951_1_alg».proof.Proof.LibPlainDot

noncomputable section

namespace Cert.Spec

open Idealize.ShloMosaic Idealize.ShloMosaic.ValueIdx

/-- The scalar shape, a column with one entry per token, and an a × b matrix. -/
abbrev Sc : Shape := ⟨0, ![]⟩
abbrev TokCol : Shape := ⟨2, ![8192, 1]⟩
abbrev Mat (a b : ℕ) : Shape := ⟨2, ![a, b]⟩

/-! ## Rows kept inside a bucket, zero outside -/

/-- `X` with the rows of the tokens whose mask bit is clear replaced by zero: the mask column is spread along the
    rows, the zero is a splat. -/
def keepIn {d : ℕ} (h2 : TokCol.BroadcastsInDim (Mat 8192 d) ![0, 1]) (h0 : Sc.BroadcastsInDim (Mat 8192 d) ![])
    (col : IVec TokCol 1) (X : FVec Ideal (Mat 8192 d) .f32) : FVec Ideal (Mat 8192 d) .f32 :=
  select (broadcastInDim (Mat 8192 d) ![0, 1] h2 col) X
    (broadcastInDim (Mat 8192 d) ![] h0 (constant (F := Ideal) Sc .f32 0x00000000#32))

/-- A splat of a float constant read at any index is that constant. -/
theorem splat_apply {T : Shape} (h0 : Sc.BroadcastsInDim T ![]) (w : BitVec 32) (j : T.Idx) :
    broadcastInDim T ![] h0 (constant (F := Ideal) Sc .f32 w) j = Ideal.ofBits .f32 w :=
  broadcastInDim_scalar_apply h0 _ j

/-- The mask column spread along a row reads the row's bit. -/
theorem spread_apply {d : ℕ} (h2 : TokCol.BroadcastsInDim (Mat 8192 d) ![0, 1]) (col : IVec TokCol 1) (n : Fin 8192) (k : Fin d) :
    broadcastInDim (Mat 8192 d) ![0, 1] h2 col (ix2 n k) = col (ix2 n 0) := by
  refine broadcastInDim_apply _ h2 col (ix2 n k) (ix2 n 0) fun a => ?_
  match a with
  | ⟨0, _⟩ => rfl
  | ⟨1, _⟩ => rfl

/-- Entry (n, k) of the kept rows: the entry of `X` if token n's bit is set, zero otherwise. -/
theorem keepIn_apply {d : ℕ} (h2 : TokCol.BroadcastsInDim (Mat 8192 d) ![0, 1]) (h0 : Sc.BroadcastsInDim (Mat 8192 d) ![])
    (col : IVec TokCol 1) (X : FVec Ideal (Mat 8192 d) .f32) (n : Fin 8192) (k : Fin d) :
    keepIn h2 h0 col X (ix2 n k) = if col (ix2 n 0) = 1 then X (ix2 n k) else 0 := by
  show Scalar.select (broadcastInDim (Mat 8192 d) ![0, 1] h2 col (ix2 n k)) (X (ix2 n k))
      (broadcastInDim (Mat 8192 d) ![] h0 (constant (F := Ideal) Sc .f32 0x00000000#32) (ix2 n k)) = _
  rw [spread_apply, splat_apply, Ideal.ofBits_zero_f32]
  rfl

/-- A contraction against rows that are zero outside the bucket is the contraction inside the bucket and zero outside:
    every term outside is 0 · p. -/
theorem sum_kept_mul {d : ℕ} (b : BitVec 1) (x p : Fin d → EReal) :
    (∑ k : Fin d, (if b = 1 then x k else 0) * p k) = if b = 1 then ∑ k : Fin d, x k * p k else 0 := by
  by_cases hb : b = 1
  · simp only [if_pos hb]
  · simp only [if_neg hb, zero_mul, Finset.sum_const_zero]

/-! ## The joined contraction axis: 1360 = 1024 + 256 + 64 + 16 -/

/-- A sum over the 1360 joined features is the sum of the four sums over the pieces, piece i starting at the
    offset 0, 1024, 1280, 1344. -/
theorem sum_joined (f : Fin 1360 → EReal) :
    (∑ k : Fin 1360, f k)
      = (((∑ k : Fin 1024, f (⟨k.val, by omega⟩ : Fin 1360)) + ∑ k : Fin 256, f (⟨1024 + k.val, by omega⟩ : Fin 1360))
          + ∑ k : Fin 64, f (⟨1280 + k.val, by omega⟩ : Fin 1360)) + ∑ k : Fin 16, f (⟨1344 + k.val, by omega⟩ : Fin 1360) := by
  have e3 : (∑ k : Fin 1360, f k) = (∑ k : Fin 1344, f (⟨k.val, by omega⟩ : Fin 1360)) + ∑ k : Fin 16, f (⟨1344 + k.val, by omega⟩ : Fin 1360) :=
    Fin.sum_univ_add (a := 1344) (b := 16) f
  have e2 : (∑ k : Fin 1344, f (⟨k.val, by omega⟩ : Fin 1360)) = (∑ k : Fin 1280, f (⟨k.val, by omega⟩ : Fin 1360)) + ∑ k : Fin 64, f (⟨1280 + k.val, by omega⟩ : Fin 1360) :=
    Fin.sum_univ_add (a := 1280) (b := 64) fun k => f (⟨k.val, by omega⟩ : Fin 1360)
  have e1 : (∑ k : Fin 1280, f (⟨k.val, by omega⟩ : Fin 1360)) = (∑ k : Fin 1024, f (⟨k.val, by omega⟩ : Fin 1360)) + ∑ k : Fin 256, f (⟨1024 + k.val, by omega⟩ : Fin 1360) :=
    Fin.sum_univ_add (a := 1024) (b := 256) fun k => f (⟨k.val, by omega⟩ : Fin 1360)
  rw [e3, e2, e1]

/-! ## The two computations -/

/-- The joined rows times the stacked projections, scaled by 32: entry (n, e) is (Σ_k A(n, k) · B(k, e)) · 32. -/
def scaledJoin (A : FVec Ideal (Mat 8192 1360) .bf16) (B : FVec Ideal (Mat 1360 1024) .bf16) : FVec Ideal (Mat 8192 1024) .f32 :=
  fun j => (∑ k : Fin 1360, A (ix2 (j 0) k) * B (ix2 k (j 1))) * Ideal.ofBits .f32 0x42000000#32

section Joined

variable (hcatA : Shape.Concatenates [Mat 8192 1024, Mat 8192 256, Mat 8192 64, Mat 8192 16] (Mat 8192 1360) 1)
  (hcatB : Shape.Concatenates [Mat 1024 1024, Mat 256 1024, Mat 64 1024, Mat 16 1024] (Mat 1360 1024) 0)
  (hlt : FTy.bits .bf16 < FTy.bits .f32)
  (K0 : FVec Ideal (Mat 8192 1024) .f32) (K1 : FVec Ideal (Mat 8192 256) .f32) (K2 : FVec Ideal (Mat 8192 64) .f32) (K3 : FVec Ideal (Mat 8192 16) .f32)
  (P0 : FVec Ideal (Mat 1024 1024) .f32) (P1 : FVec Ideal (Mat 256 1024) .f32) (P2 : FVec Ideal (Mat 64 1024) .f32) (P3 : FVec Ideal (Mat 16 1024) .f32)

/-- The four row sets, each rounded to bf16 (the identity on the extended reals), as the pieces of a join. -/
abbrev rowPieces : List ((s : Shape) × (s.Idx → Ideal .bf16)) :=
  [⟨Mat 8192 1024, truncf .bf16 K0 hlt⟩, ⟨Mat 8192 256, truncf .bf16 K1 hlt⟩,
    ⟨Mat 8192 64, truncf .bf16 K2 hlt⟩, ⟨Mat 8192 16, truncf .bf16 K3 hlt⟩]

/-- The four row sets side by side. -/
def joinedRows : FVec Ideal (Mat 8192 1360) .bf16 :=
  concatenate (Mat 8192 1360) 1 (rowPieces hlt K0 K1 K2 K3) hcatA

/-- The four projections, each rounded to bf16, as the pieces of a stack. -/
abbrev projPieces : List ((s : Shape) × (s.Idx → Ideal .bf16)) :=
  [⟨Mat 1024 1024, truncf .bf16 P0 hlt⟩, ⟨Mat 256 1024, truncf .bf16 P1 hlt⟩,
    ⟨Mat 64 1024, truncf .bf16 P2 hlt⟩, ⟨Mat 16 1024, truncf .bf16 P3 hlt⟩]

/-- The four projections stacked. -/
def stackedProj : FVec Ideal (Mat 1360 1024) .bf16 :=
  concatenate (Mat 1360 1024) 0 (projPieces hlt P0 P1 P2 P3) hcatB

/-! Column k of piece i of the joined rows is column offset_i + k of the whole; likewise the rows of the stack. -/
theorem joinedRows_at0 (n : Fin 8192) (k : Fin 1024) :
    joinedRows hcatA hlt K0 K1 K2 K3 (ix2 n (⟨k.val, by omega⟩ : Fin 1360)) = K0 (ix2 n k) := by
  unfold joinedRows
  refine (concatenate_apply_piece (t := Mat 8192 1360) (1 : Fin 2) (rowPieces hlt K0 K1 K2 K3) hcatA (ix2 n (⟨k.val, by omega⟩ : Fin 1360)) 0 (by show (0 : ℕ) < 4; omega) (Mat 8192 1024) (truncf .bf16 K0 hlt) rfl rfl 0 (by rfl)
    (ix2 n k) (fun b hb => ?_) ?_).trans rfl
  · match b with
    | ⟨0, _⟩ => rfl
    | ⟨1, _⟩ => exact absurd rfl hb
  · exact Nat.zero_add _
theorem joinedRows_at1 (n : Fin 8192) (k : Fin 256) :
    joinedRows hcatA hlt K0 K1 K2 K3 (ix2 n (⟨1024 + k.val, by omega⟩ : Fin 1360)) = K1 (ix2 n k) := by
  unfold joinedRows
  refine (concatenate_apply_piece (t := Mat 8192 1360) (1 : Fin 2) (rowPieces hlt K0 K1 K2 K3) hcatA (ix2 n (⟨1024 + k.val, by omega⟩ : Fin 1360)) 1 (by show (1 : ℕ) < 4; omega) (Mat 8192 256) (truncf .bf16 K1 hlt) rfl rfl 1024 (by rfl)
    (ix2 n k) (fun b hb => ?_) ?_).trans rfl
  · match b with
    | ⟨0, _⟩ => rfl
    | ⟨1, _⟩ => exact absurd rfl hb
  · rfl
theorem joinedRows_at2 (n : Fin 8192) (k : Fin 64) :
    joinedRows hcatA hlt K0 K1 K2 K3 (ix2 n (⟨1280 + k.val, by omega⟩ : Fin 1360)) = K2 (ix2 n k) := by
  unfold joinedRows
  refine (concatenate_apply_piece (t := Mat 8192 1360) (1 : Fin 2) (rowPieces hlt K0 K1 K2 K3) hcatA (ix2 n (⟨1280 + k.val, by omega⟩ : Fin 1360)) 2 (by show (2 : ℕ) < 4; omega) (Mat 8192 64) (truncf .bf16 K2 hlt) rfl rfl 1280 (by rfl)
    (ix2 n k) (fun b hb => ?_) ?_).trans rfl
  · match b with
    | ⟨0, _⟩ => rfl
    | ⟨1, _⟩ => exact absurd rfl hb
  · rfl
theorem joinedRows_at3 (n : Fin 8192) (k : Fin 16) :
    joinedRows hcatA hlt K0 K1 K2 K3 (ix2 n (⟨1344 + k.val, by omega⟩ : Fin 1360)) = K3 (ix2 n k) := by
  unfold joinedRows
  refine (concatenate_apply_piece (t := Mat 8192 1360) (1 : Fin 2) (rowPieces hlt K0 K1 K2 K3) hcatA (ix2 n (⟨1344 + k.val, by omega⟩ : Fin 1360)) 3 (by show (3 : ℕ) < 4; omega) (Mat 8192 16) (truncf .bf16 K3 hlt) rfl rfl 1344 (by rfl)
    (ix2 n k) (fun b hb => ?_) ?_).trans rfl
  · match b with
    | ⟨0, _⟩ => rfl
    | ⟨1, _⟩ => exact absurd rfl hb
  · rfl
theorem stackedProj_at0 (k : Fin 1024) (e : Fin 1024) :
    stackedProj hcatB hlt P0 P1 P2 P3 (ix2 (⟨k.val, by omega⟩ : Fin 1360) e) = P0 (ix2 k e) := by
  unfold stackedProj
  refine (concatenate_apply_piece (t := Mat 1360 1024) (0 : Fin 2) (projPieces hlt P0 P1 P2 P3) hcatB (ix2 (⟨k.val, by omega⟩ : Fin 1360) e) 0 (by show (0 : ℕ) < 4; omega) (Mat 1024 1024) (truncf .bf16 P0 hlt) rfl rfl 0 (by rfl)
    (ix2 k e) (fun b hb => ?_) ?_).trans rfl
  · match b with
    | ⟨0, _⟩ => exact absurd rfl hb
    | ⟨1, _⟩ => rfl
  · exact Nat.zero_add _
theorem stackedProj_at1 (k : Fin 256) (e : Fin 1024) :
    stackedProj hcatB hlt P0 P1 P2 P3 (ix2 (⟨1024 + k.val, by omega⟩ : Fin 1360) e) = P1 (ix2 k e) := by
  unfold stackedProj
  refine (concatenate_apply_piece (t := Mat 1360 1024) (0 : Fin 2) (projPieces hlt P0 P1 P2 P3) hcatB (ix2 (⟨1024 + k.val, by omega⟩ : Fin 1360) e) 1 (by show (1 : ℕ) < 4; omega) (Mat 256 1024) (truncf .bf16 P1 hlt) rfl rfl 1024 (by rfl)
    (ix2 k e) (fun b hb => ?_) ?_).trans rfl
  · match b with
    | ⟨0, _⟩ => exact absurd rfl hb
    | ⟨1, _⟩ => rfl
  · rfl
theorem stackedProj_at2 (k : Fin 64) (e : Fin 1024) :
    stackedProj hcatB hlt P0 P1 P2 P3 (ix2 (⟨1280 + k.val, by omega⟩ : Fin 1360) e) = P2 (ix2 k e) := by
  unfold stackedProj
  refine (concatenate_apply_piece (t := Mat 1360 1024) (0 : Fin 2) (projPieces hlt P0 P1 P2 P3) hcatB (ix2 (⟨1280 + k.val, by omega⟩ : Fin 1360) e) 2 (by show (2 : ℕ) < 4; omega) (Mat 64 1024) (truncf .bf16 P2 hlt) rfl rfl 1280 (by rfl)
    (ix2 k e) (fun b hb => ?_) ?_).trans rfl
  · match b with
    | ⟨0, _⟩ => exact absurd rfl hb
    | ⟨1, _⟩ => rfl
  · rfl
theorem stackedProj_at3 (k : Fin 16) (e : Fin 1024) :
    stackedProj hcatB hlt P0 P1 P2 P3 (ix2 (⟨1344 + k.val, by omega⟩ : Fin 1360) e) = P3 (ix2 k e) := by
  unfold stackedProj
  refine (concatenate_apply_piece (t := Mat 1360 1024) (0 : Fin 2) (projPieces hlt P0 P1 P2 P3) hcatB (ix2 (⟨1344 + k.val, by omega⟩ : Fin 1360) e) 3 (by show (3 : ℕ) < 4; omega) (Mat 16 1024) (truncf .bf16 P3 hlt) rfl rfl 1344 (by rfl)
    (ix2 k e) (fun b hb => ?_) ?_).trans rfl
  · match b with
    | ⟨0, _⟩ => exact absurd rfl hb
    | ⟨1, _⟩ => rfl
  · rfl

end Joined

/-- THE TWO WAYS AGREE: the joined product scaled by 32 is the masked sum of the four products scaled by 32. -/
theorem two_ways
    (hcatA : Shape.Concatenates [Mat 8192 1024, Mat 8192 256, Mat 8192 64, Mat 8192 16] (Mat 8192 1360) 1)
    (hcatB : Shape.Concatenates [Mat 1024 1024, Mat 256 1024, Mat 64 1024, Mat 16 1024] (Mat 1360 1024) 0)
    (hlt : FTy.bits .bf16 < FTy.bits .f32)
    (h2_0 : TokCol.BroadcastsInDim (Mat 8192 1024) ![0, 1]) (h0_0 : Sc.BroadcastsInDim (Mat 8192 1024) ![])
    (h2_1 : TokCol.BroadcastsInDim (Mat 8192 256) ![0, 1]) (h0_1 : Sc.BroadcastsInDim (Mat 8192 256) ![])
    (h2_2 : TokCol.BroadcastsInDim (Mat 8192 64) ![0, 1]) (h0_2 : Sc.BroadcastsInDim (Mat 8192 64) ![])
    (h2_3 : TokCol.BroadcastsInDim (Mat 8192 16) ![0, 1]) (h0_3 : Sc.BroadcastsInDim (Mat 8192 16) ![])
    (d0 : DotDims (Mat 8192 1024) (Mat 1024 1024) (Mat 8192 1024)) (hd0 : d0 = DotDims.plain 8192 1024 1024)
    (d1 : DotDims (Mat 8192 256) (Mat 256 1024) (Mat 8192 1024)) (hd1 : d1 = DotDims.plain 8192 256 1024)
    (d2 : DotDims (Mat 8192 64) (Mat 64 1024) (Mat 8192 1024)) (hd2 : d2 = DotDims.plain 8192 64 1024)
    (d3 : DotDims (Mat 8192 16) (Mat 16 1024) (Mat 8192 1024)) (hd3 : d3 = DotDims.plain 8192 16 1024)
    (col0 col1 col2 col3 : IVec TokCol 1)
    (R0 : FVec Ideal (Mat 8192 1024) .f32) (R1 : FVec Ideal (Mat 8192 256) .f32) (R2 : FVec Ideal (Mat 8192 64) .f32) (R3 : FVec Ideal (Mat 8192 16) .f32)
    (P0 : FVec Ideal (Mat 1024 1024) .f32) (P1 : FVec Ideal (Mat 256 1024) .f32) (P2 : FVec Ideal (Mat 64 1024) .f32) (P3 : FVec Ideal (Mat 16 1024) .f32) :
    scaledJoin (joinedRows hcatA hlt (keepIn h2_0 h0_0 col0 R0) (keepIn h2_1 h0_1 col1 R1) (keepIn h2_2 h0_2 col2 R2) (keepIn h2_3 h0_3 col3 R3))
        (stackedProj hcatB hlt P0 P1 P2 P3)
      = mulf (addf (addf (addf (addf (broadcastInDim (Mat 8192 1024) ![] h0_0 (constant (F := Ideal) Sc .f32 0x00000000#32))
            (keepIn h2_0 h0_0 col0 (Host.dotGeneral d0 none R0 P0))) (keepIn h2_0 h0_0 col1 (Host.dotGeneral d1 none R1 P1)))
            (keepIn h2_0 h0_0 col2 (Host.dotGeneral d2 none R2 P2))) (keepIn h2_0 h0_0 col3 (Host.dotGeneral d3 none R3 P3)))
          (broadcastInDim (Mat 8192 1024) ![] h0_0 (constant (F := Ideal) Sc .f32 0x42000000#32)) := by
  funext j
  obtain ⟨n, e, rfl⟩ : ∃ (n : Fin 8192) (e : Fin 1024), j = ix2 n e := ⟨j 0, j 1, eq_ix2 j⟩
  have S0 : (∑ k : Fin 1024, joinedRows hcatA hlt (keepIn h2_0 h0_0 col0 R0) (keepIn h2_1 h0_1 col1 R1) (keepIn h2_2 h0_2 col2 R2) (keepIn h2_3 h0_3 col3 R3) (ix2 n (⟨k.val, by omega⟩ : Fin 1360))
        * stackedProj hcatB hlt P0 P1 P2 P3 (ix2 (⟨k.val, by omega⟩ : Fin 1360) e))
      = if col0 (ix2 n 0) = 1 then ∑ k : Fin 1024, R0 (ix2 n k) * P0 (ix2 k e) else 0 := by
    rw [← sum_kept_mul]
    refine Finset.sum_congr rfl fun k _ => ?_
    rw [joinedRows_at0, stackedProj_at0, keepIn_apply]
  have S1 : (∑ k : Fin 256, joinedRows hcatA hlt (keepIn h2_0 h0_0 col0 R0) (keepIn h2_1 h0_1 col1 R1) (keepIn h2_2 h0_2 col2 R2) (keepIn h2_3 h0_3 col3 R3) (ix2 n (⟨1024 + k.val, by omega⟩ : Fin 1360))
        * stackedProj hcatB hlt P0 P1 P2 P3 (ix2 (⟨1024 + k.val, by omega⟩ : Fin 1360) e))
      = if col1 (ix2 n 0) = 1 then ∑ k : Fin 256, R1 (ix2 n k) * P1 (ix2 k e) else 0 := by
    rw [← sum_kept_mul]
    refine Finset.sum_congr rfl fun k _ => ?_
    rw [joinedRows_at1, stackedProj_at1, keepIn_apply]
  have S2 : (∑ k : Fin 64, joinedRows hcatA hlt (keepIn h2_0 h0_0 col0 R0) (keepIn h2_1 h0_1 col1 R1) (keepIn h2_2 h0_2 col2 R2) (keepIn h2_3 h0_3 col3 R3) (ix2 n (⟨1280 + k.val, by omega⟩ : Fin 1360))
        * stackedProj hcatB hlt P0 P1 P2 P3 (ix2 (⟨1280 + k.val, by omega⟩ : Fin 1360) e))
      = if col2 (ix2 n 0) = 1 then ∑ k : Fin 64, R2 (ix2 n k) * P2 (ix2 k e) else 0 := by
    rw [← sum_kept_mul]
    refine Finset.sum_congr rfl fun k _ => ?_
    rw [joinedRows_at2, stackedProj_at2, keepIn_apply]
  have S3 : (∑ k : Fin 16, joinedRows hcatA hlt (keepIn h2_0 h0_0 col0 R0) (keepIn h2_1 h0_1 col1 R1) (keepIn h2_2 h0_2 col2 R2) (keepIn h2_3 h0_3 col3 R3) (ix2 n (⟨1344 + k.val, by omega⟩ : Fin 1360))
        * stackedProj hcatB hlt P0 P1 P2 P3 (ix2 (⟨1344 + k.val, by omega⟩ : Fin 1360) e))
      = if col3 (ix2 n 0) = 1 then ∑ k : Fin 16, R3 (ix2 n k) * P3 (ix2 k e) else 0 := by
    rw [← sum_kept_mul]
    refine Finset.sum_congr rfl fun k _ => ?_
    rw [joinedRows_at3, stackedProj_at3, keepIn_apply]
  -- the other side, entry by entry: a splat of zero, four kept products, a splat of 32
  show (∑ k : Fin 1360, joinedRows hcatA hlt (keepIn h2_0 h0_0 col0 R0) (keepIn h2_1 h0_1 col1 R1) (keepIn h2_2 h0_2 col2 R2) (keepIn h2_3 h0_3 col3 R3) (ix2 n k)
        * stackedProj hcatB hlt P0 P1 P2 P3 (ix2 k e)) * Ideal.ofBits .f32 0x42000000#32
      = ((((broadcastInDim (Mat 8192 1024) ![] h0_0 (constant (F := Ideal) Sc .f32 0x00000000#32) (ix2 n e)
            + keepIn h2_0 h0_0 col0 (Host.dotGeneral d0 none R0 P0) (ix2 n e)) + keepIn h2_0 h0_0 col1 (Host.dotGeneral d1 none R1 P1) (ix2 n e))
            + keepIn h2_0 h0_0 col2 (Host.dotGeneral d2 none R2 P2) (ix2 n e)) + keepIn h2_0 h0_0 col3 (Host.dotGeneral d3 none R3 P3) (ix2 n e))
          * broadcastInDim (Mat 8192 1024) ![] h0_0 (constant (F := Ideal) Sc .f32 0x42000000#32) (ix2 n e)
  rw [sum_joined, S0, S1, S2, S3, splat_apply, splat_apply, Ideal.ofBits_zero_f32, zero_add,
    keepIn_apply, keepIn_apply, keepIn_apply, keepIn_apply,
    Idealize.ShloMosaic.LibPlainDot.dotGeneral_apply_of_plain d0 hd0, Idealize.ShloMosaic.LibPlainDot.dotGeneral_apply_of_plain d1 hd1,
    Idealize.ShloMosaic.LibPlainDot.dotGeneral_apply_of_plain d2 hd2, Idealize.ShloMosaic.LibPlainDot.dotGeneral_apply_of_plain d3 hd3]

end Cert.Spec

end
-- ==== Proof.ValueIdeal.lean ====
/-
  What the gather-and-project program computes, on the extended reals.

  The region's result array is, entry by entry, (Σ_k A(n, k) · B(k, e)) · 32 with A the joined rows and B the stacked
  projection as the region finds them. Grid point t multiplies its 2048 rows of A by all of B: the body's product
  into a zero accumulator read at (p, q) is the sum over the 1360 joined features, and row p of point t's block is
  row 2048 t + p of the array, for the rows and for the result alike. The four result blocks tile the array, so what
  each point writes back, block t of that one function, makes up the whole of it. The closing reshape then lays the
  [8192, 1024] array out as [4, 2048, 1024].
-/
import proofs.«138749_j55327768707951_1_alg».proof.Proof.RegionIdeal
import proofs.«138749_j55327768707951_1_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.Val

open Cert.KernelIdeal Cert.KernelIdeal.Gen Cert.KernelIdeal.Region
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The joined rows and the stacked projection as the region finds them, at their literal types. -/
abbrev rowsIn (c : Dev nD) : FVec Ideal S8192x1360 .bf16 := entry m c main_v73
abbrev projIn (c : Dev nD) : FVec Ideal S1360x1024 .bf16 := entry m c main_v78

theorem origin0 : (![0, 0] : Fin 2 → Nat) = fun _ => 0 := funext fun a => by fin_cases a <;> rfl

/-- The body's contraction is the plain one: the left block's columns against the right block's rows. -/
theorem dims_plain : dot_S2048x1360_S1360x1024_S2048x1024_1_0_0_1_n_n = DotDims.plain 2048 1360 1024 := rfl

/-- The body's stored value at (p, q): the two loaded blocks multiplied into zero, so the sum over the 1360 joined
    features of x0(p, k) · x1(k, q), times the constant 32. -/
theorem product_at (x0 : Vec Ideal S2048x1360 .bf16) (x1 : Vec Ideal S1360x1024 .bf16) (p : Fin 2048) (q : Fin 1024) :
    k0_pay1 x0 x1 (ix2 p q) = (∑ k : Fin 1360, x0 (ix2 p k) * x1 (ix2 k q)) * Ideal.ofBits .f32 0x42000000#32 := by
  unfold k0_pay1
  show matmul dot_S2048x1360_S1360x1024_S2048x1024_1_0_0_1_n_n none (shapeCast S2048x1360 x0 shapeCasts_S2048x1360_S2048x1360)
      (shapeCast S1360x1024 x1 shapeCasts_S1360x1024_S1360x1024) (constant S2048x1024 .f32 0x00000000#32) (ix2 p q) * Ideal.ofBits .f32 0x42000000#32 = _
  rw [shapeCast_self, shapeCast_self]
  exact congrArg (· * Ideal.ofBits .f32 0x42000000#32)
    (Idealize.ShloMosaic.LibPlainDot.matmul_zero_apply_of_plain _ dims_plain none x0 x1 p q)

/-- The printed index maps over the four grid points: the rows' block moves with the result's, the projection's
    block never moves, and nothing moves along the columns. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 3 :=
  (by decide +kernel : ∀ t : Fin grid0.N, _)

/-- Each of the four row blocks of the result is some point's. -/
theorem idx_onto : ∀ q0 : Fin 4, ∃ t : Fin cfg0.N, win0_2.index t = ![q0.val, 0] :=
  (by decide +kernel : ∀ q0 : Fin 4, ∃ t : Fin grid0.N, win0_2.index t = ![q0.val, 0])

/-- WHAT POINT `t` WRITES BACK is block `t` of the one whole-array function. -/
theorem flushed_eq (c : Dev nD) (t : Fin cfg0.N) :
    (pdata m 0 c).flushed 2 t = ((cfg0.win 2).blk t).view.read (Elt Ideal) (Spec.scaledJoin (rowsIn m c) (projIn m c)) := by
  show (cfg0.win 2).cut (grid0.coords t) ((pdata m 0 c).after 2 t) = _
  rw [after_out]
  unfold scaledProduct
  rw [View.canon_unit_zero origin0]
  simp only [View.ld_unit_zero (S := S2048x1360) origin0, View.ld_unit_zero (S := S1360x1024) origin0]
  obtain ⟨e0, e1, e2, e3, e4, e5⟩ := idx_facts t
  funext j
  obtain ⟨p, q, rfl⟩ : ∃ (p : Fin 2048) (q : Fin 1024), j = ix2 p q := ⟨j 0, j 1, eq_ix2 j⟩
  -- the array index this block entry sits at: row 2048 t + p, column q
  obtain ⟨n, e, hne⟩ : ∃ (n : Fin 8192) (e : Fin 1024), ((cfg0.win 2).blk t).view.emb (ix2 p q) = ix2 n e := ⟨_, _, eq_ix2 _⟩
  have hn : win0_2.index t (0 : Fin 2) * 2048 + 1 * p.val = n.val := congrArg Fin.val (congrFun hne (0 : Fin 2))
  have he : win0_2.index t (1 : Fin 2) * 1024 + 1 * q.val = e.val := congrArg Fin.val (congrFun hne (1 : Fin 2))
  show k0_pay1 (blockAt m c 0 t) (blockAt m c 1 t) (ix2 p q) = Spec.scaledJoin (rowsIn m c) (projIn m c) (((cfg0.win 2).blk t).view.emb (ix2 p q))
  rw [hne]
  refine (product_at (blockAt m c 0 t) (blockAt m c 1 t) p q).trans ?_
  show (∑ k : Fin 1360, rowsIn m c (((cfg0.win 0).blk t).view.emb (ix2 p k)) * projIn m c (((cfg0.win 1).blk t).view.emb (ix2 k q))) * Ideal.ofBits .f32 0x42000000#32
      = (∑ k : Fin 1360, rowsIn m c (ix2 n k) * projIn m c (ix2 k e)) * Ideal.ofBits .f32 0x42000000#32
  refine congrArg (· * Ideal.ofBits .f32 0x42000000#32) (Finset.sum_congr rfl fun k _ => ?_)
  have h0 : ((cfg0.win 0).blk t).view.emb (ix2 p k) = ix2 n k := by
    funext a; apply Fin.ext
    match a with
    | ⟨0, _⟩ => show win0_0.index t (0 : Fin 2) * 2048 + 1 * p.val = n.val; omega
    | ⟨1, _⟩ => show win0_0.index t (1 : Fin 2) * 1360 + 1 * k.val = k.val; omega
  have h1 : ((cfg0.win 1).blk t).view.emb (ix2 k q) = ix2 k e := by
    funext a; apply Fin.ext
    match a with
    | ⟨0, _⟩ => show win0_1.index t (0 : Fin 2) * 1360 + 1 * k.val = k.val; omega
    | ⟨1, _⟩ => show win0_1.index t (1 : Fin 2) * 1024 + 1 * q.val = e.val; omega
  rw [h0, h1]

/-- An index of the result array is in point `t`'s block iff each coordinate is in the block's range on its axis. -/
theorem mem_blk (t : Fin cfg0.N) (i : S8192x1024.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_v79).slice (win0_2.rect t)).set ↔ _
  rw [View.set_slice_whole, Rect.mem_set_unit]
  exact Iff.rfl

/-- Every index of the result array is in the block of the point that handles its row: point ⌊row / 2048⌋. -/
theorem covered (i : S8192x1024.Idx) : ∃ t : Fin cfg0.N, (cfg0.win 2).flush t = true ∧ i ∈ ((cfg0.win 2).blk t).view.set := by
  have hi0 : (i 0).val < 8192 := (i 0).isLt
  have hi1 : (i 1).val < 1024 := (i 1).isLt
  obtain ⟨t, ht⟩ := idx_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1024 ≤ (i 1).val ∧ (i 1).val < win0_2.index t (1 : Fin 2) * 1024 + 1024; omega

/-- THE RESULT ARRAY after the region: the joined product scaled by 32. -/
theorem result_array (c : Dev nD) : (pdata m 0 c).arrAt 2 cfg0.N = Spec.scaledJoin (rowsIn m c) (projIn m c) :=
  (pdata m 0 c).arrAt_eq_of_cover 2 (Spec.scaledJoin (rowsIn m c) (projIn m c)) (fun t _ => flushed_eq m c t) covered

end Cert.KernelIdeal.Val

end
-- ==== Proof.ResultIdeal.lean ====
/-
  The kernel program's run with its result named: the final [4, 2048, 1024] array is the region's result array —
  the joined product scaled by 32 — laid out anew by the closing reshape, and the nine arguments are unchanged.
-/
import proofs.«138749_j55327768707951_1_alg».proof.Proof.ValueIdeal

set_option maxRecDepth 16384

noncomputable section

namespace Cert.KernelIdeal.Val

open Cert.KernelIdeal Cert.KernelIdeal.Gen Cert.KernelIdeal.Region
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- After the closing reshape the final result is the region's result array, reshaped: the reshape reads the array the
    region wrote, which is the third of the region's arrays. -/
theorem result_after (c : Dev nD) :
    Pipeline.afterTail₀ cfgs (pdata m) 0 (entry0 m) [hostOps1] c main_v80
      = shapeCast S4x2048x1024 (Spec.scaledJoin (rowsIn m c) (projIn m c)) shapeCasts_S8192x1024_S4x2048x1024 := by
  unfold Pipeline.afterTail₀
  show StableHlo.after hostOps1 _ (Proc.devRef .tc main_v80) = _
  after_results
  have harr : Pipeline.withArrays spec0 c (entry0 m c) (fun w => (pdata m 0 c).arrAt w cfg0.N) (Proc.devRef .tc main_v79)
      = Spec.scaledJoin (rowsIn m c) (projIn m c) :=
    (Pipeline.withArrays_arr spec0 launch0.win.arr_inj c _ _ 2).trans (result_array m c)
  rw [harr]
  rfl

/-- In a final state of the run around the region each argument array is as launched: none is one of the region's
    arrays or the final result, and no host operation before the region writes it. -/
theorem args_kept (r : PUnit × MemSt nD τ sig (Elt Ideal))
    (h : Pipeline.FramePost cfgs (pdata m) 0 (Pipeline.afterTail₀ cfgs (pdata m) 0 (entry0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans
        ((past_tail m (pdata m) c main_arg0 (by decide) (by decide)).trans (entry_arg0 m c)),
      ((h c).2 main_arg1 (Pipeline.mem_restRefs_of main_arg1 (by decide) (by decide))).trans
        ((past_tail m (pdata m) c main_arg1 (by decide) (by decide)).trans (entry_arg1 m c)),
      ((h c).2 main_arg2 (Pipeline.mem_restRefs_of main_arg2 (by decide) (by decide))).trans
        ((past_tail m (pdata m) c main_arg2 (by decide) (by decide)).trans (entry_arg2 m c)),
      ((h c).2 main_arg3 (Pipeline.mem_restRefs_of main_arg3 (by decide) (by decide))).trans
        ((past_tail m (pdata m) c main_arg3 (by decide) (by decide)).trans (entry_arg3 m c)),
      ((h c).2 main_arg4 (Pipeline.mem_restRefs_of main_arg4 (by decide) (by decide))).trans
        ((past_tail m (pdata m) c main_arg4 (by decide) (by decide)).trans (entry_arg4 m c)),
      ((h c).2 main_arg5 (Pipeline.mem_restRefs_of main_arg5 (by decide) (by decide))).trans
        ((past_tail m (pdata m) c main_arg5 (by decide) (by decide)).trans (entry_arg5 m c)),
      ((h c).2 main_arg6 (Pipeline.mem_restRefs_of main_arg6 (by decide) (by decide))).trans
        ((past_tail m (pdata m) c main_arg6 (by decide) (by decide)).trans (entry_arg6 m c)),
      ((h c).2 main_arg7 (Pipeline.mem_restRefs_of main_arg7 (by decide) (by decide))).trans
        ((past_tail m (pdata m) c main_arg7 (by decide) (by decide)).trans (entry_arg7 m c)),
      ((h c).2 main_arg8 (Pipeline.mem_restRefs_of main_arg8 (by decide) (by decide))).trans
        ((past_tail m (pdata m) c main_arg8 (by decide) (by decide)).trans (entry_arg8 m c))⟩

/-- Every weakly fair execution of the kernel program ends with the final result at the joined product scaled by 32,
    reshaped, and with the nine argument arrays as launched. -/
theorem run_value : θ_run defs (onTc (τ := τ) (main (F := Ideal))) ⟨m, fun _ => 0, ρ⟩ (fun r => ∀ c : Dev nD,
      r.2.mem ((c.tc : Thread nD τ).loc main_v80)
        = shapeCast S4x2048x1024 (Spec.scaledJoin (rowsIn m c) (projIn m c)) shapeCasts_S8192x1024_S4x2048x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨((h c).2 main_v80 (Pipeline.mem_restRefs_of main_v80 (by decide) (by decide))).trans (result_after m c),
        args_kept m r h c⟩) (run_main m ρ)

end Cert.KernelIdeal.Val

end
-- ==== Proof.EntryIdeal.lean ====
/-
  What the region finds in its two input arrays, as terms of the argument arrays (at any float instance).

  The joined rows are the four buckets' token rows — the table's row at the token's clipped index, zeroed where
  the token is outside the bucket, rounded to bf16 — side by side; the stacked projection is the four projection
  matrices, rounded to bf16, one above the other. Both are read off the host operations before the region.
-/
import proofs.«138749_j55327768707951_1_alg».proof.Proof.RegionIdeal
import Idealize.ShloMosaic.Lib.StableHlo.Run

noncomputable section

namespace Cert.KernelIdeal.Entry

open Cert.KernelIdeal Cert.KernelIdeal.Gen Cert.KernelIdeal.Region
open Idealize.ShloMosaic Idealize.ShloMosaic.TcCoe Idealize.SL.Sem Idealize.ShloMosaic.StableHlo

variable {F : FTy → Type} [FloatOps F]
variable (m : (ℓ : Loc nD τ sig) → Buf (Elt F) ℓ)

/-- Bucket 0's mask, one bit per token, as a column: the token index lies in the bucket's range. -/
def maskCol0 (c : Dev nD) : (⟨S8192x1, .i1⟩ : BufTy).Contents (Elt F) :=
  broadcastInDim S8192x1 ![0] bcast_S8192_S8192x1_0 (andi (cmpi .sge (shapeCast _ (m ((c.tc : Thread nD τ).loc main_arg0)) shapeCasts_S4x2048_S8192) (broadcastInDim S8192 ![] bcast_S_S8192 (constantI S_ 32 0#32))) (cmpi .slt (shapeCast _ (m ((c.tc : Thread nD τ).loc main_arg0)) shapeCasts_S4x2048_S8192) (broadcastInDim S8192 ![] bcast_S_S8192 (constantI S_ 32 20000#32))))
/-- Bucket 1's mask, one bit per token, as a column: the token index lies in the bucket's range. -/
def maskCol1 (c : Dev nD) : (⟨S8192x1, .i1⟩ : BufTy).Contents (Elt F) :=
  broadcastInDim S8192x1 ![0] bcast_S8192_S8192x1_0 (andi (cmpi .sge (shapeCast _ (m ((c.tc : Thread nD τ).loc main_arg0)) shapeCasts_S4x2048_S8192) (broadcastInDim S8192 ![] bcast_S_S8192 (constantI S_ 32 20000#32))) (cmpi .slt (shapeCast _ (m ((c.tc : Thread nD τ).loc main_arg0)) shapeCasts_S4x2048_S8192) (broadcastInDim S8192 ![] bcast_S_S8192 (constantI S_ 32 40000#32))))
/-- Bucket 2's mask, one bit per token, as a column: the token index lies in the bucket's range. -/
def maskCol2 (c : Dev nD) : (⟨S8192x1, .i1⟩ : BufTy).Contents (Elt F) :=
  broadcastInDim S8192x1 ![0] bcast_S8192_S8192x1_0 (andi (cmpi .sge (shapeCast _ (m ((c.tc : Thread nD τ).loc main_arg0)) shapeCasts_S4x2048_S8192) (broadcastInDim S8192 ![] bcast_S_S8192 (constantI S_ 32 40000#32))) (cmpi .slt (shapeCast _ (m ((c.tc : Thread nD τ).loc main_arg0)) shapeCasts_S4x2048_S8192) (broadcastInDim S8192 ![] bcast_S_S8192 (constantI S_ 32 200000#32))))
/-- Bucket 3's mask, one bit per token, as a column: the token index lies in the bucket's range. -/
def maskCol3 (c : Dev nD) : (⟨S8192x1, .i1⟩ : BufTy).Contents (Elt F) :=
  broadcastInDim S8192x1 ![0] bcast_S8192_S8192x1_0 (andi (cmpi .sge (shapeCast _ (m ((c.tc : Thread nD τ).loc main_arg0)) shapeCasts_S4x2048_S8192) (broadcastInDim S8192 ![] bcast_S_S8192 (constantI S_ 32 200000#32))) (cmpi .slt (shapeCast _ (m ((c.tc : Thread nD τ).loc main_arg0)) shapeCasts_S4x2048_S8192) (broadcastInDim S8192 ![] bcast_S_S8192 (constantI S_ 32 267735#32))))
/-- Bucket 0's rows: the table's row at each token's index, the index taken relative to the bucket and clipped into it. -/
def tokenRows0 (c : Dev nD) : (⟨S8192x1024, .f32⟩ : BufTy).Contents (Elt F) :=
  Host.gather gather_S20000x1024_S8192x1_S8192x1024_1_0_n_n_0_1_11024 (m ((c.tc : Thread nD τ).loc main_arg1)) (broadcastInDim S8192x1 ![0] bcast_S8192_S8192x1_0 (select (cmpi .slt (minsi (broadcastInDim S8192 ![] bcast_S_S8192 (id (constantI S_ 32 19999#32))) (maxsi (broadcastInDim S8192 ![] bcast_S_S8192 (id (constantI S_ 32 0#32))) (subi (shapeCast _ (m ((c.tc : Thread nD τ).loc main_arg0)) shapeCasts_S4x2048_S8192) (broadcastInDim S8192 ![] bcast_S_S8192 (constantI S_ 32 0#32))))) (broadcastInDim S8192 ![] bcast_S_S8192 (constantI S_ 32 0#32))) (addi (minsi (broadcastInDim S8192 ![] bcast_S_S8192 (id (constantI S_ 32 19999#32))) (maxsi (broadcastInDim S8192 ![] bcast_S_S8192 (id (constantI S_ 32 0#32))) (subi (shapeCast _ (m ((c.tc : Thread nD τ).loc main_arg0)) shapeCasts_S4x2048_S8192) (broadcastInDim S8192 ![] bcast_S_S8192 (constantI S_ 32 0#32))))) (broadcastInDim S8192 ![] bcast_S_S8192 (constantI S_ 32 20000#32))) (minsi (broadcastInDim S8192 ![] bcast_S_S8192 (id (constantI S_ 32 19999#32))) (maxsi (broadcastInDim S8192 ![] bcast_S_S8192 (id (constantI S_ 32 0#32))) (subi (shapeCast _ (m ((c.tc : Thread nD τ).loc main_arg0)) shapeCasts_S4x2048_S8192) (broadcastInDim S8192 ![] bcast_S_S8192 (constantI S_ 32 0#32)))))))
/-- Bucket 1's rows: the table's row at each token's index, the index taken relative to the bucket and clipped into it. -/
def tokenRows1 (c : Dev nD) : (⟨S8192x256, .f32⟩ : BufTy).Contents (Elt F) :=
  Host.gather gather_S20000x256_S8192x1_S8192x256_1_0_n_n_0_1_1256 (m ((c.tc : Thread nD τ).loc main_arg2)) (broadcastInDim S8192x1 ![0] bcast_S8192_S8192x1_0 (select (cmpi .slt (minsi (broadcastInDim S8192 ![] bcast_S_S8192 (id (constantI S_ 32 19999#32))) (maxsi (broadcastInDim S8192 ![] bcast_S_S8192 (id (constantI S_ 32 0#32))) (subi (shapeCast _ (m ((c.tc : Thread nD τ).loc main_arg0)) shapeCasts_S4x2048_S8192) (broadcastInDim S8192 ![] bcast_S_S8192 (constantI S_ 32 20000#32))))) (broadcastInDim S8192 ![] bcast_S_S8192 (constantI S_ 32 0#32))) (addi (minsi (broadcastInDim S8192 ![] bcast_S_S8192 (id (constantI S_ 32 19999#32))) (maxsi (broadcastInDim S8192 ![] bcast_S_S8192 (id (constantI S_ 32 0#32))) (subi (shapeCast _ (m ((c.tc : Thread nD τ).loc main_arg0)) shapeCasts_S4x2048_S8192) (broadcastInDim S8192 ![] bcast_S_S8192 (constantI S_ 32 20000#32))))) (broadcastInDim S8192 ![] bcast_S_S8192 (constantI S_ 32 20000#32))) (minsi (broadcastInDim S8192 ![] bcast_S_S8192 (id (constantI S_ 32 19999#32))) (maxsi (broadcastInDim S8192 ![] bcast_S_S8192 (id (constantI S_ 32 0#32))) (subi (shapeCast _ (m ((c.tc : Thread nD τ).loc main_arg0)) shapeCasts_S4x2048_S8192) (broadcastInDim S8192 ![] bcast_S_S8192 (constantI S_ 32 20000#32)))))))
/-- Bucket 2's rows: the table's row at each token's index, the index taken relative to the bucket and clipped into it. -/
def tokenRows2 (c : Dev nD) : (⟨S8192x64, .f32⟩ : BufTy).Contents (Elt F) :=
  Host.gather gather_S160000x64_S8192x1_S8192x64_1_0_n_n_0_1_164 (m ((c.tc : Thread nD τ).loc main_arg3)) (broadcastInDim S8192x1 ![0] bcast_S8192_S8192x1_0 (select (cmpi .slt (minsi (broadcastInDim S8192 ![] bcast_S_S8192 (id (constantI S_ 32 159999#32))) (maxsi (broadcastInDim S8192 ![] bcast_S_S8192 (id (constantI S_ 32 0#32))) (subi (shapeCast _ (m ((c.tc : Thread nD τ).loc main_arg0)) shapeCasts_S4x2048_S8192) (broadcastInDim S8192 ![] bcast_S_S8192 (constantI S_ 32 40000#32))))) (broadcastInDim S8192 ![] bcast_S_S8192 (constantI S_ 32 0#32))) (addi (minsi (broadcastInDim S8192 ![] bcast_S_S8192 (id (constantI S_ 32 159999#32))) (maxsi (broadcastInDim S8192 ![] bcast_S_S8192 (id (constantI S_ 32 0#32))) (subi (shapeCast _ (m ((c.tc : Thread nD τ).loc main_arg0)) shapeCasts_S4x2048_S8192) (broadcastInDim S8192 ![] bcast_S_S8192 (constantI S_ 32 40000#32))))) (broadcastInDim S8192 ![] bcast_S_S8192 (constantI S_ 32 160000#32))) (minsi (broadcastInDim S8192 ![] bcast_S_S8192 (id (constantI S_ 32 159999#32))) (maxsi (broadcastInDim S8192 ![] bcast_S_S8192 (id (constantI S_ 32 0#32))) (subi (shapeCast _ (m ((c.tc : Thread nD τ).loc main_arg0)) shapeCasts_S4x2048_S8192) (broadcastInDim S8192 ![] bcast_S_S8192 (constantI S_ 32 40000#32)))))))
/-- Bucket 3's rows: the table's row at each token's index, the index taken relative to the bucket and clipped into it. -/
def tokenRows3 (c : Dev nD) : (⟨S8192x16, .f32⟩ : BufTy).Contents (Elt F) :=
  Host.gather gather_S67735x16_S8192x1_S8192x16_1_0_n_n_0_1_116 (m ((c.tc : Thread nD τ).loc main_arg4)) (broadcastInDim S8192x1 ![0] bcast_S8192_S8192x1_0 (select (cmpi .slt (minsi (broadcastInDim S8192 ![] bcast_S_S8192 (id (constantI S_ 32 67734#32))) (maxsi (broadcastInDim S8192 ![] bcast_S_S8192 (id (constantI S_ 32 0#32))) (subi (shapeCast _ (m ((c.tc : Thread nD τ).loc main_arg0)) shapeCasts_S4x2048_S8192) (broadcastInDim S8192 ![] bcast_S_S8192 (constantI S_ 32 200000#32))))) (broadcastInDim S8192 ![] bcast_S_S8192 (constantI S_ 32 0#32))) (addi (minsi (broadcastInDim S8192 ![] bcast_S_S8192 (id (constantI S_ 32 67734#32))) (maxsi (broadcastInDim S8192 ![] bcast_S_S8192 (id (constantI S_ 32 0#32))) (subi (shapeCast _ (m ((c.tc : Thread nD τ).loc main_arg0)) shapeCasts_S4x2048_S8192) (broadcastInDim S8192 ![] bcast_S_S8192 (constantI S_ 32 200000#32))))) (broadcastInDim S8192 ![] bcast_S_S8192 (constantI S_ 32 67735#32))) (minsi (broadcastInDim S8192 ![] bcast_S_S8192 (id (constantI S_ 32 67734#32))) (maxsi (broadcastInDim S8192 ![] bcast_S_S8192 (id (constantI S_ 32 0#32))) (subi (shapeCast _ (m ((c.tc : Thread nD τ).loc main_arg0)) shapeCasts_S4x2048_S8192) (broadcastInDim S8192 ![] bcast_S_S8192 (constantI S_ 32 200000#32)))))))

/-- Bucket 0's mask column from the flattened token indices. -/
def maskColOf0 (flat : (⟨S8192, .i32⟩ : BufTy).Contents (Elt F)) : (⟨S8192x1, .i1⟩ : BufTy).Contents (Elt F) :=
  broadcastInDim S8192x1 ![0] bcast_S8192_S8192x1_0 (andi (cmpi .sge flat (broadcastInDim S8192 ![] bcast_S_S8192 (constantI S_ 32 0#32))) (cmpi .slt flat (broadcastInDim S8192 ![] bcast_S_S8192 (constantI S_ 32 20000#32))))
/-- Bucket 0's token rows from the flattened token indices and the bucket's table. -/
def tokenRowsOf0 (flat : (⟨S8192, .i32⟩ : BufTy).Contents (Elt F)) (emb : (⟨S20000x1024, .f32⟩ : BufTy).Contents (Elt F)) :
    (⟨S8192x1024, .f32⟩ : BufTy).Contents (Elt F) :=
  Host.gather gather_S20000x1024_S8192x1_S8192x1024_1_0_n_n_0_1_11024 emb (broadcastInDim S8192x1 ![0] bcast_S8192_S8192x1_0 (select (cmpi .slt (minsi (broadcastInDim S8192 ![] bcast_S_S8192 (id (constantI S_ 32 19999#32))) (maxsi (broadcastInDim S8192 ![] bcast_S_S8192 (id (constantI S_ 32 0#32))) (subi flat (broadcastInDim S8192 ![] bcast_S_S8192 (constantI S_ 32 0#32))))) (broadcastInDim S8192 ![] bcast_S_S8192 (constantI S_ 32 0#32))) (addi (minsi (broadcastInDim S8192 ![] bcast_S_S8192 (id (constantI S_ 32 19999#32))) (maxsi (broadcastInDim S8192 ![] bcast_S_S8192 (id (constantI S_ 32 0#32))) (subi flat (broadcastInDim S8192 ![] bcast_S_S8192 (constantI S_ 32 0#32))))) (broadcastInDim S8192 ![] bcast_S_S8192 (constantI S_ 32 20000#32))) (minsi (broadcastInDim S8192 ![] bcast_S_S8192 (id (constantI S_ 32 19999#32))) (maxsi (broadcastInDim S8192 ![] bcast_S_S8192 (id (constantI S_ 32 0#32))) (subi flat (broadcastInDim S8192 ![] bcast_S_S8192 (constantI S_ 32 0#32)))))))
/-- Bucket 0's token rows with the rows of tokens outside the bucket set to zero. -/
def keptOf0 (flat : (⟨S8192, .i32⟩ : BufTy).Contents (Elt F)) (emb : (⟨S20000x1024, .f32⟩ : BufTy).Contents (Elt F)) :
    (⟨S8192x1024, .f32⟩ : BufTy).Contents (Elt F) :=
  select (broadcastInDim S8192x1024 ![0, 1] bcast_S8192x1_S8192x1024_0_1 (maskColOf0 flat)) (tokenRowsOf0 flat emb)
    (broadcastInDim S8192x1024 ![] bcast_S_S8192x1024 (constant S_ .f32 0x00000000#32))
/-- Bucket 1's mask column from the flattened token indices. -/
def maskColOf1 (flat : (⟨S8192, .i32⟩ : BufTy).Contents (Elt F)) : (⟨S8192x1, .i1⟩ : BufTy).Contents (Elt F) :=
  broadcastInDim S8192x1 ![0] bcast_S8192_S8192x1_0 (andi (cmpi .sge flat (broadcastInDim S8192 ![] bcast_S_S8192 (constantI S_ 32 20000#32))) (cmpi .slt flat (broadcastInDim S8192 ![] bcast_S_S8192 (constantI S_ 32 40000#32))))
/-- Bucket 1's token rows from the flattened token indices and the bucket's table. -/
def tokenRowsOf1 (flat : (⟨S8192, .i32⟩ : BufTy).Contents (Elt F)) (emb : (⟨S20000x256, .f32⟩ : BufTy).Contents (Elt F)) :
    (⟨S8192x256, .f32⟩ : BufTy).Contents (Elt F) :=
  Host.gather gather_S20000x256_S8192x1_S8192x256_1_0_n_n_0_1_1256 emb (broadcastInDim S8192x1 ![0] bcast_S8192_S8192x1_0 (select (cmpi .slt (minsi (broadcastInDim S8192 ![] bcast_S_S8192 (id (constantI S_ 32 19999#32))) (maxsi (broadcastInDim S8192 ![] bcast_S_S8192 (id (constantI S_ 32 0#32))) (subi flat (broadcastInDim S8192 ![] bcast_S_S8192 (constantI S_ 32 20000#32))))) (broadcastInDim S8192 ![] bcast_S_S8192 (constantI S_ 32 0#32))) (addi (minsi (broadcastInDim S8192 ![] bcast_S_S8192 (id (constantI S_ 32 19999#32))) (maxsi (broadcastInDim S8192 ![] bcast_S_S8192 (id (constantI S_ 32 0#32))) (subi flat (broadcastInDim S8192 ![] bcast_S_S8192 (constantI S_ 32 20000#32))))) (broadcastInDim S8192 ![] bcast_S_S8192 (constantI S_ 32 20000#32))) (minsi (broadcastInDim S8192 ![] bcast_S_S8192 (id (constantI S_ 32 19999#32))) (maxsi (broadcastInDim S8192 ![] bcast_S_S8192 (id (constantI S_ 32 0#32))) (subi flat (broadcastInDim S8192 ![] bcast_S_S8192 (constantI S_ 32 20000#32)))))))
/-- Bucket 1's token rows with the rows of tokens outside the bucket set to zero. -/
def keptOf1 (flat : (⟨S8192, .i32⟩ : BufTy).Contents (Elt F)) (emb : (⟨S20000x256, .f32⟩ : BufTy).Contents (Elt F)) :
    (⟨S8192x256, .f32⟩ : BufTy).Contents (Elt F) :=
  select (broadcastInDim S8192x256 ![0, 1] bcast_S8192x1_S8192x256_0_1 (maskColOf1 flat)) (tokenRowsOf1 flat emb)
    (broadcastInDim S8192x256 ![] bcast_S_S8192x256 (constant S_ .f32 0x00000000#32))
/-- Bucket 2's mask column from the flattened token indices. -/
def maskColOf2 (flat : (⟨S8192, .i32⟩ : BufTy).Contents (Elt F)) : (⟨S8192x1, .i1⟩ : BufTy).Contents (Elt F) :=
  broadcastInDim S8192x1 ![0] bcast_S8192_S8192x1_0 (andi (cmpi .sge flat (broadcastInDim S8192 ![] bcast_S_S8192 (constantI S_ 32 40000#32))) (cmpi .slt flat (broadcastInDim S8192 ![] bcast_S_S8192 (constantI S_ 32 200000#32))))
/-- Bucket 2's token rows from the flattened token indices and the bucket's table. -/
def tokenRowsOf2 (flat : (⟨S8192, .i32⟩ : BufTy).Contents (Elt F)) (emb : (⟨S160000x64, .f32⟩ : BufTy).Contents (Elt F)) :
    (⟨S8192x64, .f32⟩ : BufTy).Contents (Elt F) :=
  Host.gather gather_S160000x64_S8192x1_S8192x64_1_0_n_n_0_1_164 emb (broadcastInDim S8192x1 ![0] bcast_S8192_S8192x1_0 (select (cmpi .slt (minsi (broadcastInDim S8192 ![] bcast_S_S8192 (id (constantI S_ 32 159999#32))) (maxsi (broadcastInDim S8192 ![] bcast_S_S8192 (id (constantI S_ 32 0#32))) (subi flat (broadcastInDim S8192 ![] bcast_S_S8192 (constantI S_ 32 40000#32))))) (broadcastInDim S8192 ![] bcast_S_S8192 (constantI S_ 32 0#32))) (addi (minsi (broadcastInDim S8192 ![] bcast_S_S8192 (id (constantI S_ 32 159999#32))) (maxsi (broadcastInDim S8192 ![] bcast_S_S8192 (id (constantI S_ 32 0#32))) (subi flat (broadcastInDim S8192 ![] bcast_S_S8192 (constantI S_ 32 40000#32))))) (broadcastInDim S8192 ![] bcast_S_S8192 (constantI S_ 32 160000#32))) (minsi (broadcastInDim S8192 ![] bcast_S_S8192 (id (constantI S_ 32 159999#32))) (maxsi (broadcastInDim S8192 ![] bcast_S_S8192 (id (constantI S_ 32 0#32))) (subi flat (broadcastInDim S8192 ![] bcast_S_S8192 (constantI S_ 32 40000#32)))))))
/-- Bucket 2's token rows with the rows of tokens outside the bucket set to zero. -/
def keptOf2 (flat : (⟨S8192, .i32⟩ : BufTy).Contents (Elt F)) (emb : (⟨S160000x64, .f32⟩ : BufTy).Contents (Elt F)) :
    (⟨S8192x64, .f32⟩ : BufTy).Contents (Elt F) :=
  select (broadcastInDim S8192x64 ![0, 1] bcast_S8192x1_S8192x64_0_1 (maskColOf2 flat)) (tokenRowsOf2 flat emb)
    (broadcastInDim S8192x64 ![] bcast_S_S8192x64 (constant S_ .f32 0x00000000#32))
/-- Bucket 3's mask column from the flattened token indices. -/
def maskColOf3 (flat : (⟨S8192, .i32⟩ : BufTy).Contents (Elt F)) : (⟨S8192x1, .i1⟩ : BufTy).Contents (Elt F) :=
  broadcastInDim S8192x1 ![0] bcast_S8192_S8192x1_0 (andi (cmpi .sge flat (broadcastInDim S8192 ![] bcast_S_S8192 (constantI S_ 32 200000#32))) (cmpi .slt flat (broadcastInDim S8192 ![] bcast_S_S8192 (constantI S_ 32 267735#32))))
/-- Bucket 3's token rows from the flattened token indices and the bucket's table. -/
def tokenRowsOf3 (flat : (⟨S8192, .i32⟩ : BufTy).Contents (Elt F)) (emb : (⟨S67735x16, .f32⟩ : BufTy).Contents (Elt F)) :
    (⟨S8192x16, .f32⟩ : BufTy).Contents (Elt F) :=
  Host.gather gather_S67735x16_S8192x1_S8192x16_1_0_n_n_0_1_116 emb (broadcastInDim S8192x1 ![0] bcast_S8192_S8192x1_0 (select (cmpi .slt (minsi (broadcastInDim S8192 ![] bcast_S_S8192 (id (constantI S_ 32 67734#32))) (maxsi (broadcastInDim S8192 ![] bcast_S_S8192 (id (constantI S_ 32 0#32))) (subi flat (broadcastInDim S8192 ![] bcast_S_S8192 (constantI S_ 32 200000#32))))) (broadcastInDim S8192 ![] bcast_S_S8192 (constantI S_ 32 0#32))) (addi (minsi (broadcastInDim S8192 ![] bcast_S_S8192 (id (constantI S_ 32 67734#32))) (maxsi (broadcastInDim S8192 ![] bcast_S_S8192 (id (constantI S_ 32 0#32))) (subi flat (broadcastInDim S8192 ![] bcast_S_S8192 (constantI S_ 32 200000#32))))) (broadcastInDim S8192 ![] bcast_S_S8192 (constantI S_ 32 67735#32))) (minsi (broadcastInDim S8192 ![] bcast_S_S8192 (id (constantI S_ 32 67734#32))) (maxsi (broadcastInDim S8192 ![] bcast_S_S8192 (id (constantI S_ 32 0#32))) (subi flat (broadcastInDim S8192 ![] bcast_S_S8192 (constantI S_ 32 200000#32)))))))
/-- Bucket 3's token rows with the rows of tokens outside the bucket set to zero. -/
def keptOf3 (flat : (⟨S8192, .i32⟩ : BufTy).Contents (Elt F)) (emb : (⟨S67735x16, .f32⟩ : BufTy).Contents (Elt F)) :
    (⟨S8192x16, .f32⟩ : BufTy).Contents (Elt F) :=
  select (broadcastInDim S8192x16 ![0, 1] bcast_S8192x1_S8192x16_0_1 (maskColOf3 flat)) (tokenRowsOf3 flat emb)
    (broadcastInDim S8192x16 ![] bcast_S_S8192x16 (constant S_ .f32 0x00000000#32))

/-! ## The host prefix in five steps: one per bucket, then the joins -/

/-- Folding a list of operations over a valuation can be done in two steps. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-- Bucket k's operations: its mask, its clipped index, its gathered rows and their zeroing (the first operation of a
    later bucket's group rounds the previous bucket's rows to bf16). -/
abbrev grp0 : List (HloOp τ sig (Elt F)) := List.flatten [hostOps0, hostOps0_1, hostOps0_2, hostOps0_3]
abbrev grp1 : List (HloOp τ sig (Elt F)) := List.flatten [hostOps0_4, hostOps0_5, hostOps0_6, hostOps0_7]
abbrev grp2 : List (HloOp τ sig (Elt F)) := List.flatten [hostOps0_8, hostOps0_9, hostOps0_10, hostOps0_11]
abbrev grp3 : List (HloOp τ sig (Elt F)) := List.flatten [hostOps0_12, hostOps0_13, hostOps0_14, hostOps0_15]

theorem prefix_cut : List.flatten (prefixOps (F := F)) = grp0 ++ (grp1 ++ (grp2 ++ (grp3 ++ hostOps0_16))) := by
  simp only [prefixOps, grp0, grp1, grp2, grp3, List.flatten_cons, List.flatten_nil, List.append_nil, List.append_assoc]

/-- The buffer contents after each bucket's group. -/
def st0 (c : Dev nD) : Valuation τ sig (Elt F) := StableHlo.after grp0 (fun b => m (c, b))
def st1 (c : Dev nD) : Valuation τ sig (Elt F) := StableHlo.after grp1 (st0 m c)
def st2 (c : Dev nD) : Valuation τ sig (Elt F) := StableHlo.after grp2 (st1 m c)
def st3 (c : Dev nD) : Valuation τ sig (Elt F) := StableHlo.after grp3 (st2 m c)

/-- What the region finds is the joins' operations over the contents after the four buckets. -/
theorem entry0_cut (c : Dev nD) : entry0 m c = StableHlo.after hostOps0_16 (st3 m c) := by
  unfold st3 st2 st1 st0
  show StableHlo.after (List.flatten prefixOps) (fun b => m (c, b)) = _
  rw [prefix_cut, after_append, after_append, after_append, after_append]

syntax "unwritten_by_group " num : tactic
macro_rules
  | `(tactic| unwritten_by_group 0) => `(tactic| (
      refine StableHlo.after_of_forall_not_mem (b := Proc.devRef .tc _) _ _ (List.forall_iff_forall_mem.mp ?_)
      simp only [grp0, hostOps0, hostOps0_1, hostOps0_2, hostOps0_3, List.flatten_cons, List.flatten_nil, List.append_nil, List.cons_append, List.nil_append, List.Forall, StableHlo.nullary_writes, StableHlo.unary_writes,
        StableHlo.binary_writes, StableHlo.ternary_writes, StableHlo.quaternary_writes, StableHlo.reshape_writes, StableHlo.binaryIndexed_writes,
        StableHlo.nary_writes, Finset.mem_singleton]
      repeat' apply And.intro
      all_goals exact StableHlo.devRef_ne_of_ne (by decide)))
  | `(tactic| unwritten_by_group 1) => `(tactic| (
      refine StableHlo.after_of_forall_not_mem (b := Proc.devRef .tc _) _ _ (List.forall_iff_forall_mem.mp ?_)
      simp only [grp1, hostOps0_4, hostOps0_5, hostOps0_6, hostOps0_7, List.flatten_cons, List.flatten_nil, List.append_nil, List.cons_append, List.nil_append, List.Forall, StableHlo.nullary_writes, StableHlo.unary_writes,
        StableHlo.binary_writes, StableHlo.ternary_writes, StableHlo.quaternary_writes, StableHlo.reshape_writes, StableHlo.binaryIndexed_writes,
        StableHlo.nary_writes, Finset.mem_singleton]
      repeat' apply And.intro
      all_goals exact StableHlo.devRef_ne_of_ne (by decide)))
  | `(tactic| unwritten_by_group 2) => `(tactic| (
      refine StableHlo.after_of_forall_not_mem (b := Proc.devRef .tc _) _ _ (List.forall_iff_forall_mem.mp ?_)
      simp only [grp2, hostOps0_8, hostOps0_9, hostOps0_10, hostOps0_11, List.flatten_cons, List.flatten_nil, List.append_nil, List.cons_append, List.nil_append, List.Forall, StableHlo.nullary_writes, StableHlo.unary_writes,
        StableHlo.binary_writes, StableHlo.ternary_writes, StableHlo.quaternary_writes, StableHlo.reshape_writes, StableHlo.binaryIndexed_writes,
        StableHlo.nary_writes, Finset.mem_singleton]
      repeat' apply And.intro
      all_goals exact StableHlo.devRef_ne_of_ne (by decide)))
  | `(tactic| unwritten_by_group 3) => `(tactic| (
      refine StableHlo.after_of_forall_not_mem (b := Proc.devRef .tc _) _ _ (List.forall_iff_forall_mem.mp ?_)
      simp only [grp3, hostOps0_12, hostOps0_13, hostOps0_14, hostOps0_15, List.flatten_cons, List.flatten_nil, List.append_nil, List.cons_append, List.nil_append, List.Forall, StableHlo.nullary_writes, StableHlo.unary_writes,
        StableHlo.binary_writes, StableHlo.ternary_writes, StableHlo.quaternary_writes, StableHlo.reshape_writes, StableHlo.binaryIndexed_writes,
        StableHlo.nary_writes, Finset.mem_singleton]
      repeat' apply And.intro
      all_goals exact StableHlo.devRef_ne_of_ne (by decide)))

/-! What each group computes, over any contents `W` before it. -/
theorem g0_flat (W : Valuation τ sig (Elt F)) :
    StableHlo.after grp0 W (Proc.devRef .tc main_v0) = shapeCast _ (W (Proc.devRef .tc main_arg0)) shapeCasts_S4x2048_S8192 := by
  simp only [grp0, hostOps0, hostOps0_1, hostOps0_2, hostOps0_3, List.flatten_cons, List.flatten_nil, List.append_nil, List.cons_append, List.nil_append]
  after_results_simp <;> rfl
set_option maxHeartbeats 40000000 in
theorem g0_kept (W : Valuation τ sig (Elt F)) :
    StableHlo.after grp0 W (Proc.devRef .tc main_v17)
      = keptOf0 (shapeCast _ (W (Proc.devRef .tc main_arg0)) shapeCasts_S4x2048_S8192) (W (Proc.devRef .tc main_arg1)) := by
  simp only [grp0, hostOps0, hostOps0_1, hostOps0_2, hostOps0_3, List.flatten_cons, List.flatten_nil, List.append_nil, List.cons_append, List.nil_append]
  after_results_simp <;> rfl
theorem g1_first (W : Valuation τ sig (Elt F)) :
    StableHlo.after grp1 W (Proc.devRef .tc main_v18) = truncf .bf16 (W (Proc.devRef .tc main_v17)) bitsLt_bf16_f32 := by
  simp only [grp1, hostOps0_4, hostOps0_5, hostOps0_6, hostOps0_7, List.flatten_cons, List.flatten_nil, List.append_nil, List.cons_append, List.nil_append]
  after_results_simp <;> rfl
set_option maxHeartbeats 40000000 in
theorem g1_kept (W : Valuation τ sig (Elt F)) :
    StableHlo.after grp1 W (Proc.devRef .tc main_v35) = keptOf1 (W (Proc.devRef .tc main_v0)) (W (Proc.devRef .tc main_arg2)) := by
  simp only [grp1, hostOps0_4, hostOps0_5, hostOps0_6, hostOps0_7, List.flatten_cons, List.flatten_nil, List.append_nil, List.cons_append, List.nil_append]
  after_results_simp <;> rfl
theorem g2_first (W : Valuation τ sig (Elt F)) :
    StableHlo.after grp2 W (Proc.devRef .tc main_v36) = truncf .bf16 (W (Proc.devRef .tc main_v35)) bitsLt_bf16_f32 := by
  simp only [grp2, hostOps0_8, hostOps0_9, hostOps0_10, hostOps0_11, List.flatten_cons, List.flatten_nil, List.append_nil, List.cons_append, List.nil_append]
  after_results_simp <;> rfl
set_option maxHeartbeats 40000000 in
theorem g2_kept (W : Valuation τ sig (Elt F)) :
    StableHlo.after grp2 W (Proc.devRef .tc main_v53) = keptOf2 (W (Proc.devRef .tc main_v0)) (W (Proc.devRef .tc main_arg3)) := by
  simp only [grp2, hostOps0_8, hostOps0_9, hostOps0_10, hostOps0_11, List.flatten_cons, List.flatten_nil, List.append_nil, List.cons_append, List.nil_append]
  after_results_simp <;> rfl
theorem g3_first (W : Valuation τ sig (Elt F)) :
    StableHlo.after grp3 W (Proc.devRef .tc main_v54) = truncf .bf16 (W (Proc.devRef .tc main_v53)) bitsLt_bf16_f32 := by
  simp only [grp3, hostOps0_12, hostOps0_13, hostOps0_14, hostOps0_15, List.flatten_cons, List.flatten_nil, List.append_nil, List.cons_append, List.nil_append]
  after_results_simp <;> rfl
set_option maxHeartbeats 40000000 in
theorem g3_kept (W : Valuation τ sig (Elt F)) :
    StableHlo.after grp3 W (Proc.devRef .tc main_v71) = keptOf3 (W (Proc.devRef .tc main_v0)) (W (Proc.devRef .tc main_arg4)) := by
  simp only [grp3, hostOps0_12, hostOps0_13, hostOps0_14, hostOps0_15, List.flatten_cons, List.flatten_nil, List.append_nil, List.cons_append, List.nil_append]
  after_results_simp <;> rfl

/-! What each group leaves alone. -/
theorem skip1_v0 (W : Valuation τ sig (Elt F)) : StableHlo.after grp1 W (Proc.devRef .tc main_v0) = W (Proc.devRef .tc main_v0) := by
  unwritten_by_group 1
theorem skip2_v0 (W : Valuation τ sig (Elt F)) : StableHlo.after grp2 W (Proc.devRef .tc main_v0) = W (Proc.devRef .tc main_v0) := by
  unwritten_by_group 2
theorem skip2_v18 (W : Valuation τ sig (Elt F)) : StableHlo.after grp2 W (Proc.devRef .tc main_v18) = W (Proc.devRef .tc main_v18) := by
  unwritten_by_group 2
theorem skip3_v18 (W : Valuation τ sig (Elt F)) : StableHlo.after grp3 W (Proc.devRef .tc main_v18) = W (Proc.devRef .tc main_v18) := by
  unwritten_by_group 3
theorem skip3_v36 (W : Valuation τ sig (Elt F)) : StableHlo.after grp3 W (Proc.devRef .tc main_v36) = W (Proc.devRef .tc main_v36) := by
  unwritten_by_group 3
theorem skip0_arg2 (W : Valuation τ sig (Elt F)) : StableHlo.after grp0 W (Proc.devRef .tc main_arg2) = W (Proc.devRef .tc main_arg2) := by
  unwritten_by_group 0
theorem skip0_arg3 (W : Valuation τ sig (Elt F)) : StableHlo.after grp0 W (Proc.devRef .tc main_arg3) = W (Proc.devRef .tc main_arg3) := by
  unwritten_by_group 0
theorem skip1_arg3 (W : Valuation τ sig (Elt F)) : StableHlo.after grp1 W (Proc.devRef .tc main_arg3) = W (Proc.devRef .tc main_arg3) := by
  unwritten_by_group 1
theorem skip0_arg4 (W : Valuation τ sig (Elt F)) : StableHlo.after grp0 W (Proc.devRef .tc main_arg4) = W (Proc.devRef .tc main_arg4) := by
  unwritten_by_group 0
theorem skip1_arg4 (W : Valuation τ sig (Elt F)) : StableHlo.after grp1 W (Proc.devRef .tc main_arg4) = W (Proc.devRef .tc main_arg4) := by
  unwritten_by_group 1
theorem skip2_arg4 (W : Valuation τ sig (Elt F)) : StableHlo.after grp2 W (Proc.devRef .tc main_arg4) = W (Proc.devRef .tc main_arg4) := by
  unwritten_by_group 2
theorem skip0_arg5 (W : Valuation τ sig (Elt F)) : StableHlo.after grp0 W (Proc.devRef .tc main_arg5) = W (Proc.devRef .tc main_arg5) := by
  unwritten_by_group 0
theorem skip1_arg5 (W : Valuation τ sig (Elt F)) : StableHlo.after grp1 W (Proc.devRef .tc main_arg5) = W (Proc.devRef .tc main_arg5) := by
  unwritten_by_group 1
theorem skip2_arg5 (W : Valuation τ sig (Elt F)) : StableHlo.after grp2 W (Proc.devRef .tc main_arg5) = W (Proc.devRef .tc main_arg5) := by
  unwritten_by_group 2
theorem skip3_arg5 (W : Valuation τ sig (Elt F)) : StableHlo.after grp3 W (Proc.devRef .tc main_arg5) = W (Proc.devRef .tc main_arg5) := by
  unwritten_by_group 3
theorem skip0_arg6 (W : Valuation τ sig (Elt F)) : StableHlo.after grp0 W (Proc.devRef .tc main_arg6) = W (Proc.devRef .tc main_arg6) := by
  unwritten_by_group 0
theorem skip1_arg6 (W : Valuation τ sig (Elt F)) : StableHlo.after grp1 W (Proc.devRef .tc main_arg6) = W (Proc.devRef .tc main_arg6) := by
  unwritten_by_group 1
theorem skip2_arg6 (W : Valuation τ sig (Elt F)) : StableHlo.after grp2 W (Proc.devRef .tc main_arg6) = W (Proc.devRef .tc main_arg6) := by
  unwritten_by_group 2
theorem skip3_arg6 (W : Valuation τ sig (Elt F)) : StableHlo.after grp3 W (Proc.devRef .tc main_arg6) = W (Proc.devRef .tc main_arg6) := by
  unwritten_by_group 3
theorem skip0_arg7 (W : Valuation τ sig (Elt F)) : StableHlo.after grp0 W (Proc.devRef .tc main_arg7) = W (Proc.devRef .tc main_arg7) := by
  unwritten_by_group 0
theorem skip1_arg7 (W : Valuation τ sig (Elt F)) : StableHlo.after grp1 W (Proc.devRef .tc main_arg7) = W (Proc.devRef .tc main_arg7) := by
  unwritten_by_group 1
theorem skip2_arg7 (W : Valuation τ sig (Elt F)) : StableHlo.after grp2 W (Proc.devRef .tc main_arg7) = W (Proc.devRef .tc main_arg7) := by
  unwritten_by_group 2
theorem skip3_arg7 (W : Valuation τ sig (Elt F)) : StableHlo.after grp3 W (Proc.devRef .tc main_arg7) = W (Proc.devRef .tc main_arg7) := by
  unwritten_by_group 3
theorem skip0_arg8 (W : Valuation τ sig (Elt F)) : StableHlo.after grp0 W (Proc.devRef .tc main_arg8) = W (Proc.devRef .tc main_arg8) := by
  unwritten_by_group 0
theorem skip1_arg8 (W : Valuation τ sig (Elt F)) : StableHlo.after grp1 W (Proc.devRef .tc main_arg8) = W (Proc.devRef .tc main_arg8) := by
  unwritten_by_group 1
theorem skip2_arg8 (W : Valuation τ sig (Elt F)) : StableHlo.after grp2 W (Proc.devRef .tc main_arg8) = W (Proc.devRef .tc main_arg8) := by
  unwritten_by_group 2
theorem skip3_arg8 (W : Valuation τ sig (Elt F)) : StableHlo.after grp3 W (Proc.devRef .tc main_arg8) = W (Proc.devRef .tc main_arg8) := by
  unwritten_by_group 3

/-- The joins, over any contents before them: the four rounded row sets side by side (the last is rounded here), -/
theorem joins_rows (W : Valuation τ sig (Elt F)) :
    StableHlo.after hostOps0_16 W (Proc.devRef .tc main_v73)
      = concatenate S8192x1360 1 [⟨S8192x1024, (W (Proc.devRef .tc main_v18) : (⟨S8192x1024, .bf16⟩ : BufTy).Contents (Elt F))⟩,
          ⟨S8192x256, (W (Proc.devRef .tc main_v36) : (⟨S8192x256, .bf16⟩ : BufTy).Contents (Elt F))⟩,
          ⟨S8192x64, (W (Proc.devRef .tc main_v54) : (⟨S8192x64, .bf16⟩ : BufTy).Contents (Elt F))⟩,
          ⟨S8192x16, truncf .bf16 (W (Proc.devRef .tc main_v71) : (⟨S8192x16, .f32⟩ : BufTy).Contents (Elt F)) bitsLt_bf16_f32⟩]
          concatenates_S8192x1024_S8192x256_S8192x64_S8192x16_S8192x1360_d1 := by
  simp only [hostOps0_16]
  after_results_simp <;> rfl
/-- and the four rounded projections stacked. -/
theorem joins_proj (W : Valuation τ sig (Elt F)) :
    StableHlo.after hostOps0_16 W (Proc.devRef .tc main_v78)
      = concatenate S1360x1024 0 [⟨S1024x1024, truncf .bf16 (W (Proc.devRef .tc main_arg5) : (⟨S1024x1024, .f32⟩ : BufTy).Contents (Elt F)) bitsLt_bf16_f32⟩,
          ⟨S256x1024, truncf .bf16 (W (Proc.devRef .tc main_arg6) : (⟨S256x1024, .f32⟩ : BufTy).Contents (Elt F)) bitsLt_bf16_f32⟩,
          ⟨S64x1024, truncf .bf16 (W (Proc.devRef .tc main_arg7) : (⟨S64x1024, .f32⟩ : BufTy).Contents (Elt F)) bitsLt_bf16_f32⟩,
          ⟨S16x1024, truncf .bf16 (W (Proc.devRef .tc main_arg8) : (⟨S16x1024, .f32⟩ : BufTy).Contents (Elt F)) bitsLt_bf16_f32⟩]
          concatenates_S1024x1024_S256x1024_S64x1024_S16x1024_S1360x1024_d0 := by
  simp only [hostOps0_16]
  after_results_simp <;> rfl

/-! ## The stages, as terms of the arguments -/

/-- The flattened token indices are computed once, by the first operation, and never overwritten. -/
theorem st0_flat (c : Dev nD) : st0 m c (Proc.devRef .tc main_v0) = shapeCast _ (m ((c.tc : Thread nD τ).loc main_arg0)) shapeCasts_S4x2048_S8192 := by
  unfold st0; rw [g0_flat]
theorem st1_flat (c : Dev nD) : st1 m c (Proc.devRef .tc main_v0) = shapeCast _ (m ((c.tc : Thread nD τ).loc main_arg0)) shapeCasts_S4x2048_S8192 := by
  unfold st1; rw [skip1_v0, st0_flat]
theorem st2_flat (c : Dev nD) : st2 m c (Proc.devRef .tc main_v0) = shapeCast _ (m ((c.tc : Thread nD τ).loc main_arg0)) shapeCasts_S4x2048_S8192 := by
  unfold st2; rw [skip2_v0, st1_flat]

/-- Each bucket's table is still as launched when its group reads it. -/
theorem st0_arg2 (c : Dev nD) : st0 m c (Proc.devRef .tc main_arg2) = m ((c.tc : Thread nD τ).loc main_arg2) := by
  unfold st0; rw [skip0_arg2]
theorem st1_arg3 (c : Dev nD) : st1 m c (Proc.devRef .tc main_arg3) = m ((c.tc : Thread nD τ).loc main_arg3) := by
  unfold st1; rw [skip1_arg3]; unfold st0; rw [skip0_arg3]
theorem st2_arg4 (c : Dev nD) : st2 m c (Proc.devRef .tc main_arg4) = m ((c.tc : Thread nD τ).loc main_arg4) := by
  unfold st2; rw [skip2_arg4]; unfold st1; rw [skip1_arg4]; unfold st0; rw [skip0_arg4]

/-- Each bucket's kept rows, after its group. -/
theorem st0_kept (c : Dev nD) : st0 m c (Proc.devRef .tc main_v17) = keptOf0 (shapeCast _ (m ((c.tc : Thread nD τ).loc main_arg0)) shapeCasts_S4x2048_S8192) (m ((c.tc : Thread nD τ).loc main_arg1)) := by
  unfold st0; rw [g0_kept]
theorem st1_kept (c : Dev nD) : st1 m c (Proc.devRef .tc main_v35) = keptOf1 (shapeCast _ (m ((c.tc : Thread nD τ).loc main_arg0)) shapeCasts_S4x2048_S8192) (m ((c.tc : Thread nD τ).loc main_arg2)) := by
  unfold st1; rw [g1_kept, st0_flat, st0_arg2]
theorem st2_kept (c : Dev nD) : st2 m c (Proc.devRef .tc main_v53) = keptOf2 (shapeCast _ (m ((c.tc : Thread nD τ).loc main_arg0)) shapeCasts_S4x2048_S8192) (m ((c.tc : Thread nD τ).loc main_arg3)) := by
  unfold st2; rw [g2_kept, st1_flat, st1_arg3]
theorem st3_kept (c : Dev nD) : st3 m c (Proc.devRef .tc main_v71) = keptOf3 (shapeCast _ (m ((c.tc : Thread nD τ).loc main_arg0)) shapeCasts_S4x2048_S8192) (m ((c.tc : Thread nD τ).loc main_arg4)) := by
  unfold st3; rw [g3_kept, st2_flat, st2_arg4]

/-- The first three buckets' rows, rounded, as the joins find them. -/
theorem st3_piece0 (c : Dev nD) : st3 m c (Proc.devRef .tc main_v18) = truncf .bf16 (keptOf0 (shapeCast _ (m ((c.tc : Thread nD τ).loc main_arg0)) shapeCasts_S4x2048_S8192) (m ((c.tc : Thread nD τ).loc main_arg1))) bitsLt_bf16_f32 := by
  unfold st3; rw [skip3_v18]; unfold st2; rw [skip2_v18]; unfold st1; rw [g1_first, st0_kept]
theorem st3_piece1 (c : Dev nD) : st3 m c (Proc.devRef .tc main_v36) = truncf .bf16 (keptOf1 (shapeCast _ (m ((c.tc : Thread nD τ).loc main_arg0)) shapeCasts_S4x2048_S8192) (m ((c.tc : Thread nD τ).loc main_arg2))) bitsLt_bf16_f32 := by
  unfold st3; rw [skip3_v36]; unfold st2; rw [g2_first, st1_kept]
theorem st3_piece2 (c : Dev nD) : st3 m c (Proc.devRef .tc main_v54) = truncf .bf16 (keptOf2 (shapeCast _ (m ((c.tc : Thread nD τ).loc main_arg0)) shapeCasts_S4x2048_S8192) (m ((c.tc : Thread nD τ).loc main_arg3))) bitsLt_bf16_f32 := by
  unfold st3; rw [g3_first, st2_kept]

/-- The projections are as launched when the joins read them. -/
theorem st3_arg5 (c : Dev nD) : st3 m c (Proc.devRef .tc main_arg5) = m ((c.tc : Thread nD τ).loc main_arg5) := by
  unfold st3; rw [skip3_arg5]; unfold st2; rw [skip2_arg5]; unfold st1; rw [skip1_arg5]; unfold st0; rw [skip0_arg5]
theorem st3_arg6 (c : Dev nD) : st3 m c (Proc.devRef .tc main_arg6) = m ((c.tc : Thread nD τ).loc main_arg6) := by
  unfold st3; rw [skip3_arg6]; unfold st2; rw [skip2_arg6]; unfold st1; rw [skip1_arg6]; unfold st0; rw [skip0_arg6]
theorem st3_arg7 (c : Dev nD) : st3 m c (Proc.devRef .tc main_arg7) = m ((c.tc : Thread nD τ).loc main_arg7) := by
  unfold st3; rw [skip3_arg7]; unfold st2; rw [skip2_arg7]; unfold st1; rw [skip1_arg7]; unfold st0; rw [skip0_arg7]
theorem st3_arg8 (c : Dev nD) : st3 m c (Proc.devRef .tc main_arg8) = m ((c.tc : Thread nD τ).loc main_arg8) := by
  unfold st3; rw [skip3_arg8]; unfold st2; rw [skip2_arg8]; unfold st1; rw [skip1_arg8]; unfold st0; rw [skip0_arg8]

/-! ## What the region finds -/

/-- The stacked projection as the region finds it. -/
theorem proj_entry (c : Dev nD) :
    entry m c main_v78 = concatenate S1360x1024 0 [⟨S1024x1024, truncf .bf16 (m ((c.tc : Thread nD τ).loc main_arg5)) bitsLt_bf16_f32⟩, ⟨S256x1024, truncf .bf16 (m ((c.tc : Thread nD τ).loc main_arg6)) bitsLt_bf16_f32⟩, ⟨S64x1024, truncf .bf16 (m ((c.tc : Thread nD τ).loc main_arg7)) bitsLt_bf16_f32⟩, ⟨S16x1024, truncf .bf16 (m ((c.tc : Thread nD τ).loc main_arg8)) bitsLt_bf16_f32⟩] concatenates_S1024x1024_S256x1024_S64x1024_S16x1024_S1360x1024_d0 := by
  show entry0 m c (Proc.devRef .tc main_v78) = _
  rw [entry0_cut, joins_proj, st3_arg5, st3_arg6, st3_arg7, st3_arg8]

/-- The joined rows as the region finds them. -/
theorem rows_entry (c : Dev nD) :
    entry m c main_v73 = concatenate S8192x1360 1 [⟨S8192x1024, truncf .bf16 (select (broadcastInDim S8192x1024 ![0, 1] bcast_S8192x1_S8192x1024_0_1 (maskCol0 m c)) (tokenRows0 m c) (broadcastInDim S8192x1024 ![] bcast_S_S8192x1024 (constant S_ .f32 0x00000000#32))) bitsLt_bf16_f32⟩,
      ⟨S8192x256, truncf .bf16 (select (broadcastInDim S8192x256 ![0, 1] bcast_S8192x1_S8192x256_0_1 (maskCol1 m c)) (tokenRows1 m c) (broadcastInDim S8192x256 ![] bcast_S_S8192x256 (constant S_ .f32 0x00000000#32))) bitsLt_bf16_f32⟩,
      ⟨S8192x64, truncf .bf16 (select (broadcastInDim S8192x64 ![0, 1] bcast_S8192x1_S8192x64_0_1 (maskCol2 m c)) (tokenRows2 m c) (broadcastInDim S8192x64 ![] bcast_S_S8192x64 (constant S_ .f32 0x00000000#32))) bitsLt_bf16_f32⟩,
      ⟨S8192x16, truncf .bf16 (select (broadcastInDim S8192x16 ![0, 1] bcast_S8192x1_S8192x16_0_1 (maskCol3 m c)) (tokenRows3 m c) (broadcastInDim S8192x16 ![] bcast_S_S8192x16 (constant S_ .f32 0x00000000#32))) bitsLt_bf16_f32⟩] concatenates_S8192x1024_S8192x256_S8192x64_S8192x16_S8192x1360_d1 := by
  show entry0 m c (Proc.devRef .tc main_v73) = _
  rw [entry0_cut, joins_rows, st3_piece0, st3_piece1, st3_piece2, st3_kept]
  rfl

end Cert.KernelIdeal.Entry

end
-- ==== Proof.RefTerms.lean ====
/-
  The reference's result as a term of the argument arrays, with each bucket's mask column and token rows named.

  The reference multiplies each bucket's token rows by the bucket's projection, zeroes the product's rows of tokens
  outside the bucket, adds the four to a zero matrix, scales by 32 and lays the result out as [4, 2048, 1024].
-/
import proofs.«138749_j55327768707951_1_alg».proof.Proof.Gen.ReferenceIdeal.Run

noncomputable section

namespace Cert.ReferenceIdeal.Terms

open Cert.ReferenceIdeal Cert.ReferenceIdeal.Gen Idealize.ShloMosaic Idealize.ShloMosaic.TcCoe Idealize.SL.Sem

variable {F : FTy → Type} [FloatOps F]
variable (m : (ℓ : Loc nD τ sig) → Buf (Elt F) ℓ)

/-- Bucket 0's mask, one bit per token, as a column. -/
def maskCol0 (c : Dev nD) : (⟨S8192x1, .i1⟩ : BufTy).Contents (Elt F) :=
  broadcastInDim S8192x1 ![0] bcast_S8192_S8192x1_0 (andi (cmpi .sge (shapeCast _ (m ((c.tc : Thread nD τ).loc main_arg0)) shapeCasts_S4x2048_S8192) (broadcastInDim S8192 ![] bcast_S_S8192 (constantI S_ 32 0#32))) (cmpi .slt (shapeCast _ (m ((c.tc : Thread nD τ).loc main_arg0)) shapeCasts_S4x2048_S8192) (broadcastInDim S8192 ![] bcast_S_S8192 (constantI S_ 32 20000#32))))
/-- Bucket 1's mask, one bit per token, as a column. -/
def maskCol1 (c : Dev nD) : (⟨S8192x1, .i1⟩ : BufTy).Contents (Elt F) :=
  broadcastInDim S8192x1 ![0] bcast_S8192_S8192x1_0 (andi (cmpi .sge (shapeCast _ (m ((c.tc : Thread nD τ).loc main_arg0)) shapeCasts_S4x2048_S8192) (broadcastInDim S8192 ![] bcast_S_S8192 (constantI S_ 32 20000#32))) (cmpi .slt (shapeCast _ (m ((c.tc : Thread nD τ).loc main_arg0)) shapeCasts_S4x2048_S8192) (broadcastInDim S8192 ![] bcast_S_S8192 (constantI S_ 32 40000#32))))
/-- Bucket 2's mask, one bit per token, as a column. -/
def maskCol2 (c : Dev nD) : (⟨S8192x1, .i1⟩ : BufTy).Contents (Elt F) :=
  broadcastInDim S8192x1 ![0] bcast_S8192_S8192x1_0 (andi (cmpi .sge (shapeCast _ (m ((c.tc : Thread nD τ).loc main_arg0)) shapeCasts_S4x2048_S8192) (broadcastInDim S8192 ![] bcast_S_S8192 (constantI S_ 32 40000#32))) (cmpi .slt (shapeCast _ (m ((c.tc : Thread nD τ).loc main_arg0)) shapeCasts_S4x2048_S8192) (broadcastInDim S8192 ![] bcast_S_S8192 (constantI S_ 32 200000#32))))
/-- Bucket 3's mask, one bit per token, as a column. -/
def maskCol3 (c : Dev nD) : (⟨S8192x1, .i1⟩ : BufTy).Contents (Elt F) :=
  broadcastInDim S8192x1 ![0] bcast_S8192_S8192x1_0 (andi (cmpi .sge (shapeCast _ (m ((c.tc : Thread nD τ).loc main_arg0)) shapeCasts_S4x2048_S8192) (broadcastInDim S8192 ![] bcast_S_S8192 (constantI S_ 32 200000#32))) (cmpi .slt (shapeCast _ (m ((c.tc : Thread nD τ).loc main_arg0)) shapeCasts_S4x2048_S8192) (broadcastInDim S8192 ![] bcast_S_S8192 (constantI S_ 32 267735#32))))
/-- Bucket 0's rows: the table's row at each token's clipped index. -/
def tokenRows0 (c : Dev nD) : (⟨S8192x1024, .f32⟩ : BufTy).Contents (Elt F) :=
  Host.gather gather_S20000x1024_S8192x1_S8192x1024_1_0_n_n_0_1_11024 (m ((c.tc : Thread nD τ).loc main_arg1)) (broadcastInDim S8192x1 ![0] bcast_S8192_S8192x1_0 (select (cmpi .slt (minsi (broadcastInDim S8192 ![] bcast_S_S8192 (id (constantI S_ 32 19999#32))) (maxsi (broadcastInDim S8192 ![] bcast_S_S8192 (id (constantI S_ 32 0#32))) (subi (shapeCast _ (m ((c.tc : Thread nD τ).loc main_arg0)) shapeCasts_S4x2048_S8192) (broadcastInDim S8192 ![] bcast_S_S8192 (constantI S_ 32 0#32))))) (broadcastInDim S8192 ![] bcast_S_S8192 (constantI S_ 32 0#32))) (addi (minsi (broadcastInDim S8192 ![] bcast_S_S8192 (id (constantI S_ 32 19999#32))) (maxsi (broadcastInDim S8192 ![] bcast_S_S8192 (id (constantI S_ 32 0#32))) (subi (shapeCast _ (m ((c.tc : Thread nD τ).loc main_arg0)) shapeCasts_S4x2048_S8192) (broadcastInDim S8192 ![] bcast_S_S8192 (constantI S_ 32 0#32))))) (broadcastInDim S8192 ![] bcast_S_S8192 (constantI S_ 32 20000#32))) (minsi (broadcastInDim S8192 ![] bcast_S_S8192 (id (constantI S_ 32 19999#32))) (maxsi (broadcastInDim S8192 ![] bcast_S_S8192 (id (constantI S_ 32 0#32))) (subi (shapeCast _ (m ((c.tc : Thread nD τ).loc main_arg0)) shapeCasts_S4x2048_S8192) (broadcastInDim S8192 ![] bcast_S_S8192 (constantI S_ 32 0#32)))))))
/-- Bucket 1's rows: the table's row at each token's clipped index. -/
def tokenRows1 (c : Dev nD) : (⟨S8192x256, .f32⟩ : BufTy).Contents (Elt F) :=
  Host.gather gather_S20000x256_S8192x1_S8192x256_1_0_n_n_0_1_1256 (m ((c.tc : Thread nD τ).loc main_arg2)) (broadcastInDim S8192x1 ![0] bcast_S8192_S8192x1_0 (select (cmpi .slt (minsi (broadcastInDim S8192 ![] bcast_S_S8192 (id (constantI S_ 32 19999#32))) (maxsi (broadcastInDim S8192 ![] bcast_S_S8192 (id (constantI S_ 32 0#32))) (subi (shapeCast _ (m ((c.tc : Thread nD τ).loc main_arg0)) shapeCasts_S4x2048_S8192) (broadcastInDim S8192 ![] bcast_S_S8192 (constantI S_ 32 20000#32))))) (broadcastInDim S8192 ![] bcast_S_S8192 (constantI S_ 32 0#32))) (addi (minsi (broadcastInDim S8192 ![] bcast_S_S8192 (id (constantI S_ 32 19999#32))) (maxsi (broadcastInDim S8192 ![] bcast_S_S8192 (id (constantI S_ 32 0#32))) (subi (shapeCast _ (m ((c.tc : Thread nD τ).loc main_arg0)) shapeCasts_S4x2048_S8192) (broadcastInDim S8192 ![] bcast_S_S8192 (constantI S_ 32 20000#32))))) (broadcastInDim S8192 ![] bcast_S_S8192 (constantI S_ 32 20000#32))) (minsi (broadcastInDim S8192 ![] bcast_S_S8192 (id (constantI S_ 32 19999#32))) (maxsi (broadcastInDim S8192 ![] bcast_S_S8192 (id (constantI S_ 32 0#32))) (subi (shapeCast _ (m ((c.tc : Thread nD τ).loc main_arg0)) shapeCasts_S4x2048_S8192) (broadcastInDim S8192 ![] bcast_S_S8192 (constantI S_ 32 20000#32)))))))
/-- Bucket 2's rows: the table's row at each token's clipped index. -/
def tokenRows2 (c : Dev nD) : (⟨S8192x64, .f32⟩ : BufTy).Contents (Elt F) :=
  Host.gather gather_S160000x64_S8192x1_S8192x64_1_0_n_n_0_1_164 (m ((c.tc : Thread nD τ).loc main_arg3)) (broadcastInDim S8192x1 ![0] bcast_S8192_S8192x1_0 (select (cmpi .slt (minsi (broadcastInDim S8192 ![] bcast_S_S8192 (id (constantI S_ 32 159999#32))) (maxsi (broadcastInDim S8192 ![] bcast_S_S8192 (id (constantI S_ 32 0#32))) (subi (shapeCast _ (m ((c.tc : Thread nD τ).loc main_arg0)) shapeCasts_S4x2048_S8192) (broadcastInDim S8192 ![] bcast_S_S8192 (constantI S_ 32 40000#32))))) (broadcastInDim S8192 ![] bcast_S_S8192 (constantI S_ 32 0#32))) (addi (minsi (broadcastInDim S8192 ![] bcast_S_S8192 (id (constantI S_ 32 159999#32))) (maxsi (broadcastInDim S8192 ![] bcast_S_S8192 (id (constantI S_ 32 0#32))) (subi (shapeCast _ (m ((c.tc : Thread nD τ).loc main_arg0)) shapeCasts_S4x2048_S8192) (broadcastInDim S8192 ![] bcast_S_S8192 (constantI S_ 32 40000#32))))) (broadcastInDim S8192 ![] bcast_S_S8192 (constantI S_ 32 160000#32))) (minsi (broadcastInDim S8192 ![] bcast_S_S8192 (id (constantI S_ 32 159999#32))) (maxsi (broadcastInDim S8192 ![] bcast_S_S8192 (id (constantI S_ 32 0#32))) (subi (shapeCast _ (m ((c.tc : Thread nD τ).loc main_arg0)) shapeCasts_S4x2048_S8192) (broadcastInDim S8192 ![] bcast_S_S8192 (constantI S_ 32 40000#32)))))))
/-- Bucket 3's rows: the table's row at each token's clipped index. -/
def tokenRows3 (c : Dev nD) : (⟨S8192x16, .f32⟩ : BufTy).Contents (Elt F) :=
  Host.gather gather_S67735x16_S8192x1_S8192x16_1_0_n_n_0_1_116 (m ((c.tc : Thread nD τ).loc main_arg4)) (broadcastInDim S8192x1 ![0] bcast_S8192_S8192x1_0 (select (cmpi .slt (minsi (broadcastInDim S8192 ![] bcast_S_S8192 (id (constantI S_ 32 67734#32))) (maxsi (broadcastInDim S8192 ![] bcast_S_S8192 (id (constantI S_ 32 0#32))) (subi (shapeCast _ (m ((c.tc : Thread nD τ).loc main_arg0)) shapeCasts_S4x2048_S8192) (broadcastInDim S8192 ![] bcast_S_S8192 (constantI S_ 32 200000#32))))) (broadcastInDim S8192 ![] bcast_S_S8192 (constantI S_ 32 0#32))) (addi (minsi (broadcastInDim S8192 ![] bcast_S_S8192 (id (constantI S_ 32 67734#32))) (maxsi (broadcastInDim S8192 ![] bcast_S_S8192 (id (constantI S_ 32 0#32))) (subi (shapeCast _ (m ((c.tc : Thread nD τ).loc main_arg0)) shapeCasts_S4x2048_S8192) (broadcastInDim S8192 ![] bcast_S_S8192 (constantI S_ 32 200000#32))))) (broadcastInDim S8192 ![] bcast_S_S8192 (constantI S_ 32 67735#32))) (minsi (broadcastInDim S8192 ![] bcast_S_S8192 (id (constantI S_ 32 67734#32))) (maxsi (broadcastInDim S8192 ![] bcast_S_S8192 (id (constantI S_ 32 0#32))) (subi (shapeCast _ (m ((c.tc : Thread nD τ).loc main_arg0)) shapeCasts_S4x2048_S8192) (broadcastInDim S8192 ![] bcast_S_S8192 (constantI S_ 32 200000#32)))))))

set_option maxRecDepth 8192 in
/-- The reference's result over those names. -/
theorem result_eq (c : Dev nD) :
    Cert.ReferenceIdeal.Value.res_main_v80 m c
      = shapeCast _ (mulf (addf (addf (addf (addf (broadcastInDim S8192x1024 ![] bcast_S_S8192x1024 (constant S_ .f32 0x00000000#32))
          (select (broadcastInDim S8192x1024 ![0, 1] bcast_S8192x1_S8192x1024_0_1 (maskCol0 m c)) (Host.dotGeneral dot_S8192x1024_S1024x1024_S8192x1024_1_0_0_1_n_n none (tokenRows0 m c) (m ((c.tc : Thread nD τ).loc main_arg5))) (broadcastInDim S8192x1024 ![] bcast_S_S8192x1024 (constant S_ .f32 0x00000000#32))))
          (select (broadcastInDim S8192x1024 ![0, 1] bcast_S8192x1_S8192x1024_0_1 (maskCol1 m c)) (Host.dotGeneral dot_S8192x256_S256x1024_S8192x1024_1_0_0_1_n_n none (tokenRows1 m c) (m ((c.tc : Thread nD τ).loc main_arg6))) (broadcastInDim S8192x1024 ![] bcast_S_S8192x1024 (constant S_ .f32 0x00000000#32))))
          (select (broadcastInDim S8192x1024 ![0, 1] bcast_S8192x1_S8192x1024_0_1 (maskCol2 m c)) (Host.dotGeneral dot_S8192x64_S64x1024_S8192x1024_1_0_0_1_n_n none (tokenRows2 m c) (m ((c.tc : Thread nD τ).loc main_arg7))) (broadcastInDim S8192x1024 ![] bcast_S_S8192x1024 (constant S_ .f32 0x00000000#32))))
          (select (broadcastInDim S8192x1024 ![0, 1] bcast_S8192x1_S8192x1024_0_1 (maskCol3 m c)) (Host.dotGeneral dot_S8192x16_S16x1024_S8192x1024_1_0_0_1_n_n none (tokenRows3 m c) (m ((c.tc : Thread nD τ).loc main_arg8))) (broadcastInDim S8192x1024 ![] bcast_S_S8192x1024 (constant S_ .f32 0x00000000#32))))
          (broadcastInDim S8192x1024 ![] bcast_S_S8192x1024 (constant S_ .f32 0x42000000#32))) shapeCasts_S8192x1024_S4x2048x1024 := rfl

end Cert.ReferenceIdeal.Terms

end
-- ==== Proof.Bridge.lean ====
/-
  The two programs compute the same array.

  Each bucket's mask column and token rows are spelt by the same operations in both programs, so from memories that
  agree on the arguments they are the same arrays. Over those, the kernel's result is the joined product scaled by 32
  and the reference's the masked sum of the four products scaled by 32: the two ways of the specification.
-/
import proofs.«138749_j55327768707951_1_alg».proof.Proof.EntryIdeal
import proofs.«138749_j55327768707951_1_alg».proof.Proof.ValueIdeal
import proofs.«138749_j55327768707951_1_alg».proof.Proof.RefTerms
import proofs.«138749_j55327768707951_1_alg».proof.Proof.Spec

set_option maxRecDepth 16384

noncomputable section

namespace Cert.Bridge

open Idealize.ShloMosaic Idealize.ShloMosaic.TcCoe Idealize.SL.Sem

section SameTerms

variable {F : FTy → Type} [FloatOps F]
variable (mK : (ℓ : Loc Cert.KernelIdeal.nD Cert.KernelIdeal.τ Cert.KernelIdeal.sig) → Buf (Elt F) ℓ) (mR : (ℓ : Loc Cert.ReferenceIdeal.nD Cert.ReferenceIdeal.τ Cert.ReferenceIdeal.sig) → Buf (Elt F) ℓ)
  (c : Dev Cert.KernelIdeal.nD)

/-! From memories that agree on the token indices, the masks are the same; agreeing also on a bucket's table, so are
    its token rows. -/
theorem maskCol0_same (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0)) :
    Cert.ReferenceIdeal.Terms.maskCol0 mR c = Cert.KernelIdeal.Entry.maskCol0 mK c := by
  unfold Cert.ReferenceIdeal.Terms.maskCol0 Cert.KernelIdeal.Entry.maskCol0
  rw [h0]
theorem maskCol1_same (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0)) :
    Cert.ReferenceIdeal.Terms.maskCol1 mR c = Cert.KernelIdeal.Entry.maskCol1 mK c := by
  unfold Cert.ReferenceIdeal.Terms.maskCol1 Cert.KernelIdeal.Entry.maskCol1
  rw [h0]
theorem maskCol2_same (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0)) :
    Cert.ReferenceIdeal.Terms.maskCol2 mR c = Cert.KernelIdeal.Entry.maskCol2 mK c := by
  unfold Cert.ReferenceIdeal.Terms.maskCol2 Cert.KernelIdeal.Entry.maskCol2
  rw [h0]
theorem maskCol3_same (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0)) :
    Cert.ReferenceIdeal.Terms.maskCol3 mR c = Cert.KernelIdeal.Entry.maskCol3 mK c := by
  unfold Cert.ReferenceIdeal.Terms.maskCol3 Cert.KernelIdeal.Entry.maskCol3
  rw [h0]
theorem tokenRows0_same (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0))
    (ht : mR ((c.tc : Thread Cert.ReferenceIdeal.nD Cert.ReferenceIdeal.τ).loc Cert.ReferenceIdeal.main_arg1) = mK ((c.tc : Thread Cert.KernelIdeal.nD Cert.KernelIdeal.τ).loc Cert.KernelIdeal.main_arg1)) :
    Cert.ReferenceIdeal.Terms.tokenRows0 mR c = Cert.KernelIdeal.Entry.tokenRows0 mK c := by
  unfold Cert.ReferenceIdeal.Terms.tokenRows0 Cert.KernelIdeal.Entry.tokenRows0
  rw [h0, ht]; rfl
theorem tokenRows1_same (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0))
    (ht : mR ((c.tc : Thread Cert.ReferenceIdeal.nD Cert.ReferenceIdeal.τ).loc Cert.ReferenceIdeal.main_arg2) = mK ((c.tc : Thread Cert.KernelIdeal.nD Cert.KernelIdeal.τ).loc Cert.KernelIdeal.main_arg2)) :
    Cert.ReferenceIdeal.Terms.tokenRows1 mR c = Cert.KernelIdeal.Entry.tokenRows1 mK c := by
  unfold Cert.ReferenceIdeal.Terms.tokenRows1 Cert.KernelIdeal.Entry.tokenRows1
  rw [h0, ht]; rfl
theorem tokenRows2_same (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0))
    (ht : mR ((c.tc : Thread Cert.ReferenceIdeal.nD Cert.ReferenceIdeal.τ).loc Cert.ReferenceIdeal.main_arg3) = mK ((c.tc : Thread Cert.KernelIdeal.nD Cert.KernelIdeal.τ).loc Cert.KernelIdeal.main_arg3)) :
    Cert.ReferenceIdeal.Terms.tokenRows2 mR c = Cert.KernelIdeal.Entry.tokenRows2 mK c := by
  unfold Cert.ReferenceIdeal.Terms.tokenRows2 Cert.KernelIdeal.Entry.tokenRows2
  rw [h0, ht]; rfl
theorem tokenRows3_same (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0))
    (ht : mR ((c.tc : Thread Cert.ReferenceIdeal.nD Cert.ReferenceIdeal.τ).loc Cert.ReferenceIdeal.main_arg4) = mK ((c.tc : Thread Cert.KernelIdeal.nD Cert.KernelIdeal.τ).loc Cert.KernelIdeal.main_arg4)) :
    Cert.ReferenceIdeal.Terms.tokenRows3 mR c = Cert.KernelIdeal.Entry.tokenRows3 mK c := by
  unfold Cert.ReferenceIdeal.Terms.tokenRows3 Cert.KernelIdeal.Entry.tokenRows3
  rw [h0, ht]; rfl

end SameTerms

/-- From memories that agree on the nine arguments, the reference's result is the kernel's. -/
theorem results_agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.res_main_v80 m' c
      = shapeCast Cert.KernelIdeal.S4x2048x1024 (Cert.Spec.scaledJoin (Cert.KernelIdeal.Val.rowsIn m c) (Cert.KernelIdeal.Val.projIn m c)) Cert.KernelIdeal.Gen.shapeCasts_S8192x1024_S4x2048x1024 := by
  obtain ⟨h0, h1, h2, h3, h4, h5, h6, h7, h8⟩ := h
  rw [Cert.ReferenceIdeal.Terms.result_eq m' c,
    maskCol0_same m m' c h0, maskCol1_same m m' c h0, maskCol2_same m m' c h0, maskCol3_same m m' c h0,
    tokenRows0_same m m' c h0 h1, tokenRows1_same m m' c h0 h2, tokenRows2_same m m' c h0 h3, tokenRows3_same m m' c h0 h4,
    h5, h6, h7, h8,
    show Cert.KernelIdeal.Val.rowsIn m c = _ from Cert.KernelIdeal.Entry.rows_entry m c, show Cert.KernelIdeal.Val.projIn m c = _ from Cert.KernelIdeal.Entry.proj_entry m c]
  exact congrArg (fun X => shapeCast Cert.KernelIdeal.S4x2048x1024 X Cert.KernelIdeal.Gen.shapeCasts_S8192x1024_S4x2048x1024)
    (Cert.Spec.two_ways Cert.KernelIdeal.Gen.concatenates_S8192x1024_S8192x256_S8192x64_S8192x16_S8192x1360_d1
      Cert.KernelIdeal.Gen.concatenates_S1024x1024_S256x1024_S64x1024_S16x1024_S1360x1024_d0 Cert.KernelIdeal.Gen.bitsLt_bf16_f32
      Cert.KernelIdeal.Gen.bcast_S8192x1_S8192x1024_0_1 Cert.KernelIdeal.Gen.bcast_S_S8192x1024 Cert.KernelIdeal.Gen.bcast_S8192x1_S8192x256_0_1 Cert.KernelIdeal.Gen.bcast_S_S8192x256
      Cert.KernelIdeal.Gen.bcast_S8192x1_S8192x64_0_1 Cert.KernelIdeal.Gen.bcast_S_S8192x64 Cert.KernelIdeal.Gen.bcast_S8192x1_S8192x16_0_1 Cert.KernelIdeal.Gen.bcast_S_S8192x16
      Cert.ReferenceIdeal.dot_S8192x1024_S1024x1024_S8192x1024_1_0_0_1_n_n rfl Cert.ReferenceIdeal.dot_S8192x256_S256x1024_S8192x1024_1_0_0_1_n_n rfl Cert.ReferenceIdeal.dot_S8192x64_S64x1024_S8192x1024_1_0_0_1_n_n rfl Cert.ReferenceIdeal.dot_S8192x16_S16x1024_S8192x1024_1_0_0_1_n_n rfl
      (Cert.KernelIdeal.Entry.maskCol0 m c) (Cert.KernelIdeal.Entry.maskCol1 m c) (Cert.KernelIdeal.Entry.maskCol2 m c) (Cert.KernelIdeal.Entry.maskCol3 m c)
      (Cert.KernelIdeal.Entry.tokenRows0 m c) (Cert.KernelIdeal.Entry.tokenRows1 m c) (Cert.KernelIdeal.Entry.tokenRows2 m c) (Cert.KernelIdeal.Entry.tokenRows3 m c)
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8))).symm

end Cert.Bridge

end
-- ==== Proof.lean ====
/-
  The certificate of the gather-and-project kernel against its reference.

  Both programs look each token up in one of four vocabulary buckets (cut at 20000, 40000 and 200000; feature widths
  1024, 256, 64, 16), project the bucket's row to 1024 features, and scale by 32 = sqrt(1024). The reference multiplies
  each bucket's rows by that bucket's projection, zeroes the rows of tokens outside the bucket, and adds the four. The
  kernel zeroes the gathered rows outside each bucket first, joins the four row sets into one [8192, 1360] matrix and
  the four projections into one [1360, 1024] matrix, and does ONE product in a pipelined region of four grid points,
  scaling inside the region. On the extended reals the two are equal entry by entry: the contraction over the joined
  axis is the sum of the four contractions, and a zeroed row contributes 0 · p = 0, which is what the reference writes
  for a token outside the bucket. No finiteness of the inputs is used.

  The three frames: each program runs to the end without a fault and leaves its nine argument arrays as launched —
  for the kernel at both instances because no host operation and no write-back touches an argument array, for the
  reference by its run. The idealization rewrote nothing, so there is nothing to preserve.
-/
import proofs.«138749_j55327768707951_1_alg».proof.Defs
import proofs.«138749_j55327768707951_1_alg».proof.Proof.Gen.Kernel
import proofs.«138749_j55327768707951_1_alg».proof.Proof.Gen.KernelIdeal
import proofs.«138749_j55327768707951_1_alg».proof.Proof.Gen.ReferenceIdeal
import proofs.«138749_j55327768707951_1_alg».proof.Proof.Gen.ReferenceIdeal.Run
import proofs.«138749_j55327768707951_1_alg».proof.Proof.Gen.Pre_finite_inputs
import proofs.«138749_j55327768707951_1_alg».proof.Proof.RegionBits
import proofs.«138749_j55327768707951_1_alg».proof.Proof.RegionIdeal
import proofs.«138749_j55327768707951_1_alg».proof.Proof.ResultIdeal
import proofs.«138749_j55327768707951_1_alg».proof.Proof.Bridge

noncomputable section

namespace Cert.Proof

open Idealize.ShloMosaic Idealize.ShloMosaic.TcCoe Idealize.SL.Sem

/-- The word-level kernel program runs and keeps its arguments. -/
theorem frame_bits : Cert.frame_Kernel := fun m ρ _ => Cert.Kernel.Region.frame m ρ

/-- So does its reading on the extended reals. -/
theorem frame_ideal : Cert.frame_KernelIdeal := fun m ρ _ => Cert.KernelIdeal.Region.frame m ρ

/-- The reference runs and keeps its arguments: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result: the kernel's joined product scaled
    by 32, which the reference's masked sum of four products scaled by 32 equals. -/
theorem algebraic : Cert.algebraic_KernelIdeal_ReferenceIdeal := by
  intro m ρ m' ρ' _ hagree
  refine ⟨fun c => shapeCast Cert.KernelIdeal.S4x2048x1024
      (Cert.Spec.scaledJoin (Cert.KernelIdeal.Val.rowsIn m c) (Cert.KernelIdeal.Val.projIn m c))
      Cert.KernelIdeal.Gen.shapeCasts_S8192x1024_S4x2048x1024, Cert.KernelIdeal.Val.run_value m ρ, ?_⟩
  exact (θ_run Cert.ReferenceIdeal.defs _ _).mono
    (fun _ h c => ⟨(h c).1.trans (Cert.Bridge.results_agree m m' c (hagree c)), (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_bits, frame_ideal, frame_ref, trivial, algebraic⟩

end Cert.Proof

end
